-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x192x192 : Shape := ⟨4, ![8, 256, 192, 192]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S8x256x192x192 : S_.BroadcastsInDim S8x256x192x192 (![] : Fin 0 → Fin S8x256x192x192.rank)
  reducesTo_S8x256x192x192_S_d0_1_2_3 : S8x256x192x192.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x192x192 .f32) (main_arg1 : FVec F S16x256 .f32) (main_arg2 : FVec F S16 .f32) (main_arg3 : FVec F S256x16 .f32) (main_arg4 : FVec F S256 .f32) : IVec S_ 1 :=
  let main_v0 : FVec F S8x256x192x192 .f32 := Host.absf main_arg0
  let main_cst : FVec F S_ .f32 := constant S_ .f32 0x7F800000#32
  let main_v1 : FVec F S8x256x192x192 .f32 := broadcastInDim S8x256x192x192 ![] bcast_S_S8x256x192x192 main_cst
  let main_v2 : IVec S8x256x192x192 1 := cmpf .olt main_v0 main_v1
  let main_c : IVec S_ 1 := constantI S_ 1 1#1
  let main_v3 : IVec S_ 1 := (fun x v => Host.reduce IntOp.andi x v reducesTo_S8x256x192x192_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S8x256x192x192 : Shape := ⟨4, ![8, 256, 192, 192]⟩
abbrev S16x256 : Shape := ⟨2, ![16, 256]⟩
abbrev S16 : Shape := ⟨1, ![16]⟩
abbrev S256x16 : Shape := ⟨2, ![256, 16]⟩
abbrev S256 : Shape := ⟨1, ![256]⟩
abbrev S8x256x36864 : Shape := ⟨3, ![8, 256, 36864]⟩
abbrev S8x256 : Shape := ⟨2, ![8, 256]⟩
abbrev S8x256x512 : Shape := ⟨3, ![8, 256, 512]⟩
abbrev S_ : Shape := ⟨0, ![]⟩
abbrev S8x16 : Shape := ⟨2, ![8, 16]⟩
abbrev S1x16 : Shape := ⟨2, ![1, 16]⟩
abbrev S1x256 : Shape := ⟨2, ![1, 256]⟩
abbrev S8x256x1 : Shape := ⟨3, ![8, 256, 1]⟩

abbrev nBuf : Space → Nat
  | .hbm => 36
  | .vmem => 9
  | .smem => 0
  | _ => 0

abbrev bufTy : (tb : Table) → Fin (tcTables nBuf tb) → BufTy
  | .hbm, ⟨0, _⟩ => ⟨S8x256x192x192, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S8x256x36864, .f32⟩
  | .hbm, ⟨6, _⟩ => ⟨S8x256, .f32⟩
  | .hbm, ⟨7, _⟩ => ⟨S8x256, .f32⟩
  | .hbm, ⟨8, _⟩ => ⟨S_, .f32⟩
  | .hbm, ⟨9, _⟩ => ⟨S8x256, .f32⟩
  | .hbm, ⟨10, _⟩ => ⟨S8x256, .f32⟩
  | .hbm, ⟨11, _⟩ => ⟨S8x256, .f32⟩
  | .hbm, ⟨12, _⟩ => ⟨S256x16, .f32⟩
  | .hbm, ⟨13, _⟩ => ⟨S8x16, .f32⟩
  | .hbm, ⟨14, _⟩ => ⟨S1x16, .f32⟩
  | .hbm, ⟨15, _⟩ => ⟨S8x16, .f32⟩
  | .hbm, ⟨16, _⟩ => ⟨S8x16, .f32⟩
  | .hbm, ⟨17, _⟩ => ⟨S_, .f32⟩
  | .hbm, ⟨18, _⟩ => ⟨S8x16, .f32⟩
  | .hbm, ⟨19, _⟩ => ⟨S8x16, .f32⟩
  | .hbm, ⟨20, _⟩ => ⟨S16x256, .f32⟩
  | .hbm, ⟨21, _⟩ => ⟨S8x256, .f32⟩
  | .hbm, ⟨22, _⟩ => ⟨S1x256, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S_, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256x1, .f32⟩
  | .hbm, ⟨34, _⟩ => ⟨S8x256x36864, .f32⟩
  | .hbm, ⟨35, _⟩ => ⟨S8x256x192x192, .f32⟩
  | .local _ .vmem, ⟨0, _⟩ => ⟨S8x256x512, .f32⟩
  | .local _ .vmem, ⟨1, _⟩ => ⟨S8x256x512, .f32⟩
  | .local _ .vmem, ⟨2, _⟩ => ⟨S8x256, .f32⟩
  | .local _ .vmem, ⟨3, _⟩ => ⟨S8x256, .f32⟩
  | .local _ .vmem, ⟨4, _⟩ => ⟨S8x256x512, .f32⟩
  | .local _ .vmem, ⟨5, _⟩ => ⟨S8x256x512, .f32⟩
  | .local _ .vmem, ⟨6, _⟩ => ⟨S8x256x1, .f32⟩
  | .local _ .vmem, ⟨7, _⟩ => ⟨S8x256x512, .f32⟩
  | .local _ .vmem, ⟨8, _⟩ => ⟨S8x256x512, .f32⟩
  | _, _ => ⟨S8x256x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![72], ![false]⟩

def k0_cond2 (i : grid0.Coords) : BitVec 1 :=
  let arg0 : BitVec 32 := BitVec.ofNat 32 (i 0).val
  let c71_i32 : BitVec 32 := 71#32
  let v12 : BitVec 1 := Scalar.cmpi .eq arg0 c71_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![72], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x256x192x192_S8x256x36864 : S8x256x192x192.ShapeCasts S8x256x36864
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x256x512_S8x256 : S8x256x512.Reduces [2] S8x256
  bcast_S_S8x256 : S_.BroadcastsInDim S8x256 (![] : Fin 0 → Fin S8x256.rank)
  transposes_S16x256_S256x16_1_0 : S16x256.Transposes [1, 0] S256x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  transposes_S256x16_S16x256_1_0 : S256x16.Transposes [1, 0] S16x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  shapeCasts_S8x256_S8x256x1 : S8x256.ShapeCasts S8x256x1
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  broadcasts_S8x256x1_S8x256x512 : S8x256x1.Broadcasts S8x256x512
  shapeCasts_S8x256x36864_S8x256x192x192 : S8x256x36864.ShapeCasts S8x256x192x192
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x256x36864.size a
  hwx0_0 : ∀ i : grid0.Coords, EltTy.bits .f32 = 32 ∨ (Rect.block (s := S8x256x36864) S8x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S8x256x36864.size a
  hwx1_0 : ∀ i : grid1.Coords, EltTy.bits .f32 = 32 ∨ (Rect.block (s := S8x256x36864) S8x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256x1.size a ≤ S8x256x1.size a
  hwx1_1 : ∀ i : grid1.Coords, EltTy.bits .f32 = 32 ∨ (Rect.block (s := S8x256x1) S8x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x512.size a ≤ S8x256x36864.size a
  hwx1_2 : ∀ i : grid1.Coords, EltTy.bits .f32 = 32 ∨ (Rect.block (s := S8x256x36864) S8x256x512.size (cc1_transform_2 i) (hinb1_2 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8x256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S8x256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x192x192 : Shape := ⟨4, ![8, 256, 192, 192]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S8x256 : Shape := ⟨2, ![8, 256]⟩
abbrev S8x16 : Shape := ⟨2, ![8, 16]⟩
abbrev S1x16 : Shape := ⟨2, ![1, 16]⟩
abbrev S1x256 : Shape := ⟨2, ![1, 256]⟩
abbrev S8x256x1x1 : Shape := ⟨4, ![8, 256, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x256x192x192, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S8x256x192x192, .f32⟩
  | .hbm, ⟨6, _⟩ => ⟨S_, .f32⟩
  | .hbm, ⟨7, _⟩ => ⟨S8x256, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S8x256, .f32⟩
  | .hbm, ⟨13, _⟩ => ⟨S256x16, .f32⟩
  | .hbm, ⟨14, _⟩ => ⟨S8x16, .f32⟩
  | .hbm, ⟨15, _⟩ => ⟨S1x16, .f32⟩
  | .hbm, ⟨16, _⟩ => ⟨S8x16, .f32⟩
  | .hbm, ⟨17, _⟩ => ⟨S8x16, .f32⟩
  | .hbm, ⟨18, _⟩ => ⟨S_, .f32⟩
  | .hbm, ⟨19, _⟩ => ⟨S8x16, .f32⟩
  | .hbm, ⟨20, _⟩ => ⟨S8x16, .f32⟩
  | .hbm, ⟨21, _⟩ => ⟨S16x256, .f32⟩
  | .hbm, ⟨22, _⟩ => ⟨S8x256, .f32⟩
  | .hbm, ⟨23, _⟩ => ⟨S1x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S_, .f32⟩
  | .hbm, ⟨29, _⟩ => ⟨S8x256, .f32⟩
  | .hbm, ⟨30, _⟩ => ⟨S8x256, .f32⟩
  | .hbm, ⟨31, _⟩ => ⟨S_, .f32⟩
  | .hbm, ⟨32, _⟩ => ⟨S8x256, .f32⟩
  | .hbm, ⟨33, _⟩ => ⟨S8x256, .f32⟩
  | .hbm, ⟨34, _⟩ => ⟨S8x256x1x1, .f32⟩
  | .hbm, ⟨35, _⟩ => ⟨S8x256x192x192, .f32⟩
  | .hbm, ⟨36, _⟩ => ⟨S8x256x192x192, .f32⟩
  | _, _ => ⟨S8x256x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S8x256x192x192_S8x256_d2_3 : S8x256x192x192.ReducesTo [2, 3] S8x256
  h_S_ : 0 < S_.numel
  bcast_S_S8x256 : S_.BroadcastsInDim S8x256 (![] : Fin 0 → Fin S8x256.rank)
  transposes_S16x256_S256x16_1_0 : S16x256.Transposes [1, 0] S256x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  transposes_S256x16_S16x256_1_0 : S256x16.Transposes [1, 0] S16x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S8x256_S8x256x1x1_0_1 : S8x256.BroadcastsInDim S8x256x1x1 (![0, 1] : Fin 2 → Fin S8x256x1x1.rank)
  bcast_S8x256x1x1_S8x256x192x192_0_1_2_3 : S8x256x1x1.BroadcastsInDim S8x256x192x192 (![0, 1, 2, 3] : Fin 4 → Fin S8x256x192x192.rank)
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

class Facts : Prop extends Facts₀ where

variable [Facts]
-- ==== Proof.K.Body0.lean ====
import proofs.«153147_j34445637714659_1_alg».proof.Proof.Gen.Kernel.Launch
import proofs.«153147_j34445637714659_1_alg».proof.Proof.Gen.Kernel.Skeleton
import proofs.«153147_j34445637714659_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The sum-of-squares kernel body, case by case -/

/-- The first conditional of the body (the accumulator's reset), from the grid coordinates. -/
abbrev cond0_1 (i : grid0.Coords) : Prop :=
  (Scalar.cmpi .ne (Scalar.extui (Scalar.cmpi .eq (BitVec.ofNat 32 (i 0).val) 0#32)) 0#32) = 1#1
/-- The second conditional (the write of the accumulator to the output block). -/
abbrev cond0_2 (i : grid0.Coords) : Prop := k0_cond2 i = 1#1

/-! ## The body's accesses

Every load and store of the body goes through the whole buffer: the rectangle at zero offsets of the buffer's own
sizes, of the accumulator's shape (`rAcc`, also the output block's) or of the input block's (`rBlk`). -/

/-- The whole accumulator (and the whole output block), as the body addresses it. -/
abbrev rAcc : Rect S8x256 := Rect.unit (s := S8x256) ![0, 0] S8x256.size inb_S8x256_S8x256_0_0
/-- The whole input block, as the body addresses it. -/
abbrev rBlk : Rect S8x256x512 := Rect.unit (s := S8x256x512) ![0, 0, 0] S8x256x512.size inb_S8x256x512_S8x256x512_0_0_0

theorem offAcc_zero : (![0, 0] : Fin 2 → Nat) = fun _ => 0 := funext fun a => by fin_cases a <;> rfl
theorem offBlk_zero : (![0, 0, 0] : Fin 3 → Nat) = fun _ => 0 := funext fun a => by fin_cases a <;> rfl

/-- A list of stores whose LAST one (the head) goes through the whole accumulator covers it. -/
theorem cover_head (w : rAcc.shape.Idx → Elt F .f32) (L : List (View.Piece (Elt F) S8x256 .f32)) (y : S8x256.Idx) :
    ∃ pc ∈ ((⟨rAcc, w⟩ : View.Piece (Elt F) S8x256 .f32) :: L), y ∈ pc.1.set :=
  ⟨_, List.mem_cons_self, View.mem_set_unit_zero offAcc_zero inb_S8x256_S8x256_0_0 y⟩

/-! ## What a point leaves in the accumulator -/

/-- What the accumulator holds after a point that resets it first: the row sums of squares of the block over zero. -/
def stepA (x0 : Vec F S8x256x512 .f32) : Vec F S8x256 .f32 :=
  View.canon [⟨rAcc, k0_pay2 (View.ld x0 rBlk) (View.ld (View.canon [⟨rAcc, k0_pay1 (F := F)⟩]) rAcc)⟩, ⟨rAcc, k0_pay1 (F := F)⟩]
/-- What the accumulator holds after any other point: the row sums of squares of the block over what it held. -/
def stepB (x0 : Vec F S8x256x512 .f32) (xs : Vec F S8x256 .f32) : Vec F S8x256 .f32 :=
  View.canon [⟨rAcc, k0_pay2 (View.ld x0 rBlk) (View.ld xs rAcc)⟩]

/-- After the reset the second store is last and whole, so it alone is left: the payload of the block and of the
    zero accumulator the first store wrote and the load in between read back. -/
theorem stepA_eq (x0 : Vec F S8x256x512 .f32) : stepA x0 = k0_pay2 x0 (k0_pay1 (F := F)) := by
  unfold stepA
  rw [View.canon_cons_unit_zero (S := S8x256) offAcc_zero, View.canon_unit_zero (S := S8x256) offAcc_zero]
  simp only [View.ld_unit_zero (S := S8x256) offAcc_zero, View.ld_unit_zero (S := S8x256x512) offBlk_zero]
/-- Without the reset the one whole store leaves its payload, of the block and of what the accumulator held. -/
theorem stepB_eq (x0 : Vec F S8x256x512 .f32) (xs : Vec F S8x256 .f32) : stepB x0 xs = k0_pay2 x0 xs := by
  unfold stepB
  rw [View.canon_unit_zero (S := S8x256) offAcc_zero]
  simp only [View.ld_unit_zero (S := S8x256) offAcc_zero, View.ld_unit_zero (S := S8x256x512) offBlk_zero]

/-! ## The body's triple in each case

The printed function is its skeleton; the run goes through it with each conditional decided by the case's
hypotheses, and hands every buffer back to the continuation. The input block and an output block the case does not
store into come back as they were; what the stores left in the accumulator (and, in the last case, in the output
block) reads as the canonical contents of the stores' list, which is `stepA` / `stepB` once each load is read as
the contents it loaded. -/

set_option maxHeartbeats 1000000 in
/-- The first point: the accumulator, at anything, is reset and then accumulated into; the output block is untouched. -/
theorem sound_kernel0_A (c : Dev nD) (E : Set ℕ) (i : grid0.Coords)
    (arg1 : Memref sig .tc .vmem S8x256x512 .f32) (harg1 : arg1.IsWhole) (arg2 : Memref sig .tc .vmem S8x256 .f32) (harg2 : arg2.IsWhole)
    (arg3 : Memref sig .tc .vmem S8x256 .f32) (harg3 : arg3.IsWhole) (h1 : cond0_1 i) (h2 : ¬cond0_2 i)
    (x0 : Vec F S8x256x512 .f32) (xi : Vec F S8x256 .f32) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi ∗ owns (c : Thread nD τ) arg3 fullShare (stepA x0)) -∗ K ⟨⟩))
      ⊢ wp frame (wpE (defs₀ (F := F)) Variants.none c none) E (cc0__sumsq_kernel i arg1 harg1 arg2 harg2 arg3 harg3) K := by
  simp only [cc0__sumsq_kernel_eq_skeleton]; unfold cc0__sumsq_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (cover_head _ _)]
  unfold stepA sound_kernel0_A.sl.v5 sound_kernel0_A.sl.HS0_1
  rw [View.readAt_eq_ld, harg1.read_unread, View.readCov_eq_canon_ld _ _ _ (cover_head _ _)]

set_option maxHeartbeats 1000000 in
/-- A middle point: the accumulator, at what the point before left, is accumulated into; the output block is untouched. -/
theorem sound_kernel0_B (c : Dev nD) (E : Set ℕ) (i : grid0.Coords)
    (arg1 : Memref sig .tc .vmem S8x256x512 .f32) (harg1 : arg1.IsWhole) (arg2 : Memref sig .tc .vmem S8x256 .f32) (harg2 : arg2.IsWhole)
    (arg3 : Memref sig .tc .vmem S8x256 .f32) (harg3 : arg3.IsWhole) (h1 : ¬cond0_1 i) (h2 : ¬cond0_2 i)
    (x0 : Vec F S8x256x512 .f32) (xi : Vec F S8x256 .f32) (xs : Vec F S8x256 .f32) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi ∗ owns (c : Thread nD τ) arg3 fullShare (stepB x0 xs)) -∗ K ⟨⟩))
      ⊢ wp frame (wpE (defs₀ (F := F)) Variants.none c none) E (cc0__sumsq_kernel i arg1 harg1 arg2 harg2 arg3 harg3) K := by
  simp only [cc0__sumsq_kernel_eq_skeleton]; unfold cc0__sumsq_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  -- the one store covers the accumulator; its two loads read the block and the accumulator as they were held
  rw [View.read_writes_eq_canon _ _ _ (cover_head _ _)]
  unfold stepB
  rw [View.readAt_eq_ld, View.readAt_eq_ld, harg1.read_unread, harg3.read_unread]

set_option maxHeartbeats 1000000 in
/-- The last point: the accumulator is accumulated into, read back, and copied to the output block, held at anything. -/
theorem sound_kernel0_C (c : Dev nD) (E : Set ℕ) (i : grid0.Coords)
    (arg1 : Memref sig .tc .vmem S8x256x512 .f32) (harg1 : arg1.IsWhole) (arg2 : Memref sig .tc .vmem S8x256 .f32) (harg2 : arg2.IsWhole)
    (arg3 : Memref sig .tc .vmem S8x256 .f32) (harg3 : arg3.IsWhole) (h1 : ¬cond0_1 i) (h2 : cond0_2 i)
    (x0 : Vec F S8x256x512 .f32) (xs : Vec F S8x256 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (stepB x0 xs) ∗ owns (c : Thread nD τ) arg3 fullShare (stepB x0 xs)) -∗ K ⟨⟩))
      ⊢ wp frame (wpE (defs₀ (F := F)) Variants.none c none) E (cc0__sumsq_kernel i arg1 harg1 arg2 harg2 arg3 harg3) K := by
  simp only [cc0__sumsq_kernel_eq_skeleton]; unfold cc0__sumsq_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | sl_exact h1 | sl_exact h2)
  sl_step
  -- the accumulator's one store, its two loads read as the contents held: the list `stepB` is the canon of
  have hL : sound_kernel0_C.sl.HS0_1 c arg1 harg1 arg3 harg3 x0 xs
      = [⟨rAcc, k0_pay2 (View.ld x0 rBlk) (View.ld xs rAcc)⟩] := by
    unfold sound_kernel0_C.sl.HS0_1
    rw [View.readAt_eq_ld, View.readAt_eq_ld, harg1.read_unread, harg3.read_unread]
  iapply Hk
  isplitl [H0]
  · iexists _; isplitr; · ipureintro; exact harg1.read_unread _
    iexact H0
  isplitl [H1]
  · iexists _; isplitr
    swap; · iexact H1
    ipureintro
    -- the output block's one store covers it, and its payload is the accumulator read back through its own store
    rw [View.read_writes_eq_canon _ _ _ (cover_head _ _), View.canon_unit_zero (S := S8x256) offAcc_zero]
    unfold sound_kernel0_C.sl.v15
    rw [hL, View.readCov_unit_zero (S := S8x256) _ offAcc_zero]
    unfold stepB
    rw [View.canon_unit_zero (S := S8x256) offAcc_zero]
  iexists _; isplitr
  swap; · iexact HS0
  ipureintro
  rw [hL, View.read_writes_eq_canon _ _ _ (cover_head _ _)]
  rfl

end Cert.Kernel.Hand

end
-- ==== Proof.K.Region0.lean ====
import proofs.«153147_j34445637714659_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The sum-of-squares launch: the accumulator point by point, at the entry contents `V` -/

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditionals over the grid, and where the output window is idle -/

theorem hcond0_1 : ∀ t : Fin cfg0.N, cond0_1 (grid0.coords t) ↔ t.val % 72 = 0 :=
  (by decide +kernel : ∀ t : Fin grid0.N, cond0_1 (grid0.coords t) ↔ t.val % 72 = 0)
theorem hcond0_2 : ∀ t : Fin cfg0.N, cond0_2 (grid0.coords t) ↔ t.val % 72 = 71 :=
  (by decide +kernel : ∀ t : Fin grid0.N, cond0_2 (grid0.coords t) ↔ t.val % 72 = 71)
theorem liveAt0_0 : ∀ t : Fin cfg0.N, cfg0.idle 0 (grid0.coords t) = false := by decide +kernel
theorem idleAt0_1 : ∀ t : Fin cfg0.N, ¬cond0_2 (grid0.coords t) → cfg0.idle 1 (grid0.coords t) = true := by decide +kernel
theorem noFlush0_1 : ∀ t : Fin cfg0.N, ¬cond0_2 (grid0.coords t) → (cfg0.win 1).flush t = false := by decide +kernel
theorem liveAt0_1 : ∀ t : Fin cfg0.N, cond0_2 (grid0.coords t) → cfg0.idle 1 (grid0.coords t) = false := by decide +kernel

/-! ## The accumulator -/

/-- The scratch operand: a whole scoped buffer of the kernel's own. -/
abbrev scM : Memref sig .tc .vmem S8x256 .f32 := Memref.whole cc0_scratch0

/-- What the accumulator holds after the body at position `n`: reset and one block's row sums at the first point,
    then one more block's row sums over what the point before left. -/
def accAt (c : Dev nD) : (n : ℕ) → n < cfg0.N → Vec F S8x256 .f32
  | 0, h => stepA (iblk0 V c 0 ⟨0, h⟩)
  | n + 1, h => stepB (iblk0 V c 0 ⟨n + 1, h⟩) (accAt c n (Nat.lt_of_succ_lt h))

theorem accAt_zero (c : Dev nD) (t : Fin cfg0.N) (hz : t.val = 0) : accAt V c t.val t.isLt = stepA (iblk0 V c 0 t) := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt = stepB (iblk0 V c 0 t) (accAt V c (t.val - 1) (Nat.lt_of_le_of_lt (Nat.sub_le _ _) t.isLt)) := by
  obtain ⟨n, hn⟩ := t
  cases n with
  | zero => exact absurd rfl hz
  | succ n => rfl

/-- The second launch's staging buffers: scoped buffers this kernel does not touch, each whole at some contents. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the scratch as an owned memref. -/
theorem PhiA0_eq (c : Dev nD) :
    (Pipeline.ΦA spec0 c : sProp 𝕄)
      = iprop(((∃ d, owns (c : Thread nD τ) scM fullShare d) ∗ rest5 (F := F) c) ∗ (∃ r, prngReg c r)) := by
  unfold Pipeline.ΦA rest5; rw [scopedRest0_eq]; simp only [scM, owns_whole]; try rfl

/-- The invariant before position `n`: before the first point the class's; afterwards the accumulator at what the
    point before left in it. -/
def PhiS (c : Dev nD) : (n : ℕ) → n ≤ cfg0.N → sProp 𝕄
  | 0, _ => Pipeline.ΦA spec0 c
  | n + 1, hn => iprop((owns (c : Thread nD τ) scM fullShare (accAt V c n hn) ∗ rest5 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ rest5 (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ rest5 (F := F) c) ∗ (∃ r, prngReg c r)) := by
  cases n with
  | zero => exact absurd rfl hz
  | succ n => rfl

/-! ## The proof data -/

/-- The proof data of the first launch on core `c`: the arrays as the launch finds them; after the body at point `t`
    the input's buffer at its block and the output's at the accumulator; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point: the input's buffer holds its block; the first point resets the accumulator, the last copies
    it to the output's buffer, every point adds its block's row sums; elsewhere the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 72 := lt_of_lt_of_eq t.isLt (show cfg0.N = 72 from N_0)
  rw [show (dat0 V c).leavesExact 0 t = owns (c : Thread nD τ) (st0_0 t) fullShare ((dat0 V c).after 0 t) from by
    unfold Dat.leavesExact; rw [liveAt0_0 t], after0_0]
  by_cases hz : t.val = 0
  · have h1 : cond0_1 (grid0.coords t) := (hcond0_1 t).mpr (by omega)
    have h2 : ¬cond0_2 (grid0.coords t) := fun h => by have := (hcond0_2 t).mp h; omega
    rw [Dat.leavesExact_idle (dat0 V c) 1 t (idleAt0_1 t h2) (noFlush0_1 t h2)]
    rw [accAt_zero V c t hz]
    rw [PhiS_castSucc V c t, PhiS_zero V c _ _ hz, PhiA0_eq]
    iintro ⟨⟨⟨HS0, Hrest⟩, Hg⟩, Ho, ⟨%d0, H0⟩, ⟨%d1, H1⟩⟩
    iapply (sound_kernel0_A c Set.univ (grid0.coords t) _ _ _ _ _ _ h1 h2 (iblk0 V c 0 t) ((dat0 V c).before 1 t d1) _)
    isplitl [H0]; · iexact H0
    isplitl [H1]; · iexact H1
    isplitl [HS0]; · iexact HS0
    iintro ⟨H0, H1, HS0⟩
    isplitl [HS0 Hrest Hg]
    · isplitl [HS0 Hrest]
      · isplitl [HS0]; · iexact HS0
        iexact Hrest
      iexact Hg
    isplitl [Ho]; · iexact Ho
    isplitl [H0]; · iexact H0
    iexists _; iexact H1
  · by_cases hl : t.val = 71
    · have h1 : ¬cond0_1 (grid0.coords t) := fun h => by have := (hcond0_1 t).mp h; omega
      have h2 : cond0_2 (grid0.coords t) := (hcond0_2 t).mpr (by omega)
      rw [show (dat0 V c).leavesExact 1 t = owns (c : Thread nD τ) (st0_1 t) fullShare ((dat0 V c).after 1 t) from by
        unfold Dat.leavesExact; rw [liveAt0_1 t h2], after0_1]
      rw [accAt_pos V c t hz]
      rw [PhiS_castSucc V c t, PhiS_pos V c _ _ hz]
      iintro ⟨⟨⟨HS0, Hrest⟩, Hg⟩, Ho, ⟨%d0, H0⟩, ⟨%d1, H1⟩⟩
      iapply (sound_kernel0_C c Set.univ (grid0.coords t) _ _ _ _ _ _ h1 h2 (iblk0 V c 0 t) _ _)
      isplitl [H0]; · iexact H0
      isplitl [H1]; · iexists _; iexact H1
      isplitl [HS0]; · iexact HS0
      iintro ⟨H0, H1, HS0⟩
      isplitl [HS0 Hrest Hg]
      · isplitl [HS0 Hrest]
        · isplitl [HS0]; · iexact HS0
          iexact Hrest
        iexact Hg
      isplitl [Ho]; · iexact Ho
      isplitl [H0]; · iexact H0
      iexact H1
    · have h1 : ¬cond0_1 (grid0.coords t) := fun h => by have := (hcond0_1 t).mp h; omega
      have h2 : ¬cond0_2 (grid0.coords t) := fun h => by have := (hcond0_2 t).mp h; omega
      rw [Dat.leavesExact_idle (dat0 V c) 1 t (idleAt0_1 t h2) (noFlush0_1 t h2)]
      rw [accAt_pos V c t hz]
      rw [PhiS_castSucc V c t, PhiS_pos V c _ _ hz]
      iintro ⟨⟨⟨HS0, Hrest⟩, Hg⟩, Ho, ⟨%d0, H0⟩, ⟨%d1, H1⟩⟩
      iapply (sound_kernel0_B c Set.univ (grid0.coords t) _ _ _ _ _ _ h1 h2 (iblk0 V c 0 t) ((dat0 V c).before 1 t d1) _ _)
      isplitl [H0]; · iexact H0
      isplitl [H1]; · iexact H1
      isplitl [HS0]; · iexact HS0
      iintro ⟨H0, H1, HS0⟩
      isplitl [HS0 Hrest Hg]
      · isplitl [HS0 Hrest]
        · isplitl [HS0]; · iexact HS0
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem Phi0_out (c : Dev nD) : (dat0 V c).Φ (Fin.last cfg0.N) ⊢ Pipeline.ΦA spec0 c := by
  have ht : (Fin.last cfg0.N).val ≠ 0 := by rw [Fin.val_last]; have : cfg0.N = 72 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, Hrest⟩, Hg⟩
  isplitl [HS0 Hrest]
  · isplitl [HS0]; · iexists _; iexact HS0
    iexact Hrest
  iexact Hg

end Region0

end Cert.Kernel.Hand

end
-- ==== Proof.K.Region1.lean ====
import proofs.«153147_j34445637714659_1_alg».proof.Proof.Gen.Kernel.Launch
import proofs.«153147_j34445637714659_1_alg».proof.Proof.Gen.Kernel.Skeleton
import proofs.«153147_j34445637714659_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The scaling kernel (the second launch): each block of the array times the gate column, at the entry contents `V` -/

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole, through the unit rectangle at zero offsets -/

/-- The offsets of every access of the body are zero. -/
private theorem hz3 : (![0, 0, 0] : Fin 3 → Nat) = fun _ => 0 := funext fun a => by fin_cases a <;> rfl

abbrev r1_0 : Rect S8x256x512 := Rect.unit (s := S8x256x512) ![0, 0, 0] S8x256x512.size inb_S8x256x512_S8x256x512_0_0_0
abbrev r1_1 : Rect S8x256x1 := Rect.unit (s := S8x256x1) ![0, 0, 0] S8x256x1.size inb_S8x256x1_S8x256x1_0_0_0

/-- What the body leaves in the output block: the product of the input block with the gate column broadcast along the block's last axis. -/
def out1_2 (x0 : Vec F S8x256x512 .f32) (x1 : Vec F S8x256x1 .f32) : Vec F S8x256x512 .f32 :=
  View.canon [⟨r1_0, k1_pay1 (View.ld x0 r1_0) (View.ld x1 r1_1)⟩]

/-- The one store is through the whole buffer and the loads read their buffers whole: what is left is the payload of the two blocks. -/
theorem out1_2_eq (x0 : Vec F S8x256x512 .f32) (x1 : Vec F S8x256x1 .f32) : out1_2 x0 x1 = k1_pay1 x0 x1 := by
  unfold out1_2
  rw [View.canon_unit_zero hz3]
  rw [View.ld_unit_zero (S := S8x256x512) hz3, View.ld_unit_zero (S := S8x256x1) hz3]

/-- The one store covers the output buffer: its rectangle is the whole shape. -/
private theorem cover1_2 (p0 : Vec F S8x256x512 .f32) (y : S8x256x512.Idx) :
    ∃ pc ∈ ([⟨r1_0, p0⟩] : List (View.Piece (Elt F) S8x256x512 .f32)), y ∈ pc.1.set :=
  ⟨_, List.mem_singleton_self _, View.mem_set_unit_zero hz3 inb_S8x256x512_S8x256x512_0_0_0 y⟩

/-! ## The body's triple -/

set_option maxHeartbeats 1000000 in
/-- The body on whole staging memrefs, the two inputs' at read contents `x0`, `x1` and the output's at anything, runs to
    the continuation holding the inputs' as they were and the output's at `out1_2 x0 x1`. -/
private theorem sound_kernel1 (c : Dev nD) (E : Set ℕ) (i : grid1.Coords)
    (arg1 : Memref sig .tc .vmem S8x256x512 .f32) (harg1 : arg1.IsWhole)
    (arg2 : Memref sig .tc .vmem S8x256x1 .f32) (harg2 : arg2.IsWhole)
    (arg3 : Memref sig .tc .vmem S8x256x512 .f32) (harg3 : arg3.IsWhole)
    (x0 : Vec F S8x256x512 .f32) (x1 : Vec F S8x256x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## What the body finds in its input windows -/

/-- Input window 0's current staging buffer holds its block at every point: the window is uncut, never idle, and the body leaves the block in place. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the gate column, one block for the whole grid) likewise: fetched at the first point only, its block index never moves, so the buffer holds the block at every point. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
import proofs.«153147_j34445637714659_1_alg».proof.Proof.K.Region0
import proofs.«153147_j34445637714659_1_alg».proof.Proof.K.Region1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of the whole program: the buffers' contents at every boundary between its host stretches and its two launches -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the reshape of the argument (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the launches (the second launch's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second launch's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last reshape (the return). -/
abbrev W7 : Dev nD → Valuation τ sig (Elt F) := fun c => StableHlo.after hostOps2 (W6 m ρ c)

/-! ## The arguments end as launched: no host operation writes one, and neither launch's arrays include one -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (V1 m ρ) c)
    unfold Pipeline.ΦA
    iintro ⟨Hp, -, Hr⟩
    isplitl [Hr]; · iexact Hr
    iexact Hp
  hout c := by
    rw [Pipeline.ownSems0_none]
    refine (Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Hand

end
-- ==== Proof.KI.Body0.lean ====
import proofs.«153147_j34445637714659_1_alg».proof.Proof.Gen.KernelIdeal.Launch
import proofs.«153147_j34445637714659_1_alg».proof.Proof.Gen.KernelIdeal.Skeleton
import proofs.«153147_j34445637714659_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The sum-of-squares kernel body, case by case -/

/-- The first conditional of the body (the accumulator's reset), from the grid coordinates. -/
abbrev cond0_1 (i : grid0.Coords) : Prop :=
  (Scalar.cmpi .ne (Scalar.extui (Scalar.cmpi .eq (BitVec.ofNat 32 (i 0).val) 0#32)) 0#32) = 1#1
/-- The second conditional (the write of the accumulator to the output block). -/
abbrev cond0_2 (i : grid0.Coords) : Prop := k0_cond2 i = 1#1

/-! ## The body's accesses

Every load and store of the body goes through the whole buffer: the rectangle at zero offsets of the buffer's own
sizes, of the accumulator's shape (`rAcc`, also the output block's) or of the input block's (`rBlk`). -/

/-- The whole accumulator (and the whole output block), as the body addresses it. -/
abbrev rAcc : Rect S8x256 := Rect.unit (s := S8x256) ![0, 0] S8x256.size inb_S8x256_S8x256_0_0
/-- The whole input block, as the body addresses it. -/
abbrev rBlk : Rect S8x256x512 := Rect.unit (s := S8x256x512) ![0, 0, 0] S8x256x512.size inb_S8x256x512_S8x256x512_0_0_0

theorem offAcc_zero : (![0, 0] : Fin 2 → Nat) = fun _ => 0 := funext fun a => by fin_cases a <;> rfl
theorem offBlk_zero : (![0, 0, 0] : Fin 3 → Nat) = fun _ => 0 := funext fun a => by fin_cases a <;> rfl

/-- A list of stores whose LAST one (the head) goes through the whole accumulator covers it. -/
theorem cover_head (w : rAcc.shape.Idx → Elt F .f32) (L : List (View.Piece (Elt F) S8x256 .f32)) (y : S8x256.Idx) :
    ∃ pc ∈ ((⟨rAcc, w⟩ : View.Piece (Elt F) S8x256 .f32) :: L), y ∈ pc.1.set :=
  ⟨_, List.mem_cons_self, View.mem_set_unit_zero offAcc_zero inb_S8x256_S8x256_0_0 y⟩

/-! ## What a point leaves in the accumulator -/

/-- What the accumulator holds after a point that resets it first: the row sums of squares of the block over zero. -/
def stepA (x0 : Vec F S8x256x512 .f32) : Vec F S8x256 .f32 :=
  View.canon [⟨rAcc, k0_pay2 (View.ld x0 rBlk) (View.ld (View.canon [⟨rAcc, k0_pay1 (F := F)⟩]) rAcc)⟩, ⟨rAcc, k0_pay1 (F := F)⟩]
/-- What the accumulator holds after any other point: the row sums of squares of the block over what it held. -/
def stepB (x0 : Vec F S8x256x512 .f32) (xs : Vec F S8x256 .f32) : Vec F S8x256 .f32 :=
  View.canon [⟨rAcc, k0_pay2 (View.ld x0 rBlk) (View.ld xs rAcc)⟩]

/-- After the reset the second store is last and whole, so it alone is left: the payload of the block and of the
    zero accumulator the first store wrote and the load in between read back. -/
theorem stepA_eq (x0 : Vec F S8x256x512 .f32) : stepA x0 = k0_pay2 x0 (k0_pay1 (F := F)) := by
  unfold stepA
  rw [View.canon_cons_unit_zero (S := S8x256) offAcc_zero, View.canon_unit_zero (S := S8x256) offAcc_zero]
  simp only [View.ld_unit_zero (S := S8x256) offAcc_zero, View.ld_unit_zero (S := S8x256x512) offBlk_zero]
/-- Without the reset the one whole store leaves its payload, of the block and of what the accumulator held. -/
theorem stepB_eq (x0 : Vec F S8x256x512 .f32) (xs : Vec F S8x256 .f32) : stepB x0 xs = k0_pay2 x0 xs := by
  unfold stepB
  rw [View.canon_unit_zero (S := S8x256) offAcc_zero]
  simp only [View.ld_unit_zero (S := S8x256) offAcc_zero, View.ld_unit_zero (S := S8x256x512) offBlk_zero]

/-! ## The body's triple in each case

The printed function is its skeleton; the run goes through it with each conditional decided by the case's
hypotheses, and hands every buffer back to the continuation. The input block and an output block the case does not
store into come back as they were; what the stores left in the accumulator (and, in the last case, in the output
block) reads as the canonical contents of the stores' list, which is `stepA` / `stepB` once each load is read as
the contents it loaded. -/

set_option maxHeartbeats 1000000 in
/-- The first point: the accumulator, at anything, is reset and then accumulated into; the output block is untouched. -/
theorem sound_kernel0_A (c : Dev nD) (E : Set ℕ) (i : grid0.Coords)
    (arg1 : Memref sig .tc .vmem S8x256x512 .f32) (harg1 : arg1.IsWhole) (arg2 : Memref sig .tc .vmem S8x256 .f32) (harg2 : arg2.IsWhole)
    (arg3 : Memref sig .tc .vmem S8x256 .f32) (harg3 : arg3.IsWhole) (h1 : cond0_1 i) (h2 : ¬cond0_2 i)
    (x0 : Vec F S8x256x512 .f32) (xi : Vec F S8x256 .f32) (K : PUnit → sProp 𝕄) :
    iprop(owns (c : Thread nD τ) arg1 fullShare x0 ∗ owns (c : Thread nD τ) arg2 fullShare xi ∗ (∃ d, owns (c : Thread nD τ) arg3 fullShare d)
        ∗ (iprop(owns (c : Thread nD τ) arg1 fullShare x0 ∗ owns (c : Thread nD τ) arg2 fullShare xi ∗ owns (c : Thread nD τ) arg3 fullShare (stepA x0)) -∗ K ⟨⟩))
      ⊢ wp frame (wpE (defs₀ (F := F)) Variants.none c none) E (cc0__sumsq_kernel i arg1 harg1 arg2 harg2 arg3 harg3) K := by
  simp only [cc0__sumsq_kernel_eq_skeleton]; unfold cc0__sumsq_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (cover_head _ _)]
  unfold stepA sound_kernel0_A.sl.v5 sound_kernel0_A.sl.HS0_1
  rw [View.readAt_eq_ld, harg1.read_unread, View.readCov_eq_canon_ld _ _ _ (cover_head _ _)]

set_option maxHeartbeats 1000000 in
/-- A middle point: the accumulator, at what the point before left, is accumulated into; the output block is untouched. -/
theorem sound_kernel0_B (c : Dev nD) (E : Set ℕ) (i : grid0.Coords)
    (arg1 : Memref sig .tc .vmem S8x256x512 .f32) (harg1 : arg1.IsWhole) (arg2 : Memref sig .tc .vmem S8x256 .f32) (harg2 : arg2.IsWhole)
    (arg3 : Memref sig .tc .vmem S8x256 .f32) (harg3 : arg3.IsWhole) (h1 : ¬cond0_1 i) (h2 : ¬cond0_2 i)
    (x0 : Vec F S8x256x512 .f32) (xi : Vec F S8x256 .f32) (xs : Vec F S8x256 .f32) (K : PUnit → sProp 𝕄) :
    iprop(owns (c : Thread nD τ) arg1 fullShare x0 ∗ owns (c : Thread nD τ) arg2 fullShare xi ∗ owns (c : Thread nD τ) arg3 fullShare xs
        ∗ (iprop(owns (c : Thread nD τ) arg1 fullShare x0 ∗ owns (c : Thread nD τ) arg2 fullShare xi ∗ owns (c : Thread nD τ) arg3 fullShare (stepB x0 xs)) -∗ K ⟨⟩))
      ⊢ wp frame (wpE (defs₀ (F := F)) Variants.none c none) E (cc0__sumsq_kernel i arg1 harg1 arg2 harg2 arg3 harg3) K := by
  simp only [cc0__sumsq_kernel_eq_skeleton]; unfold cc0__sumsq_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  -- the one store covers the accumulator; its two loads read the block and the accumulator as they were held
  rw [View.read_writes_eq_canon _ _ _ (cover_head _ _)]
  unfold stepB
  rw [View.readAt_eq_ld, View.readAt_eq_ld, harg1.read_unread, harg3.read_unread]

set_option maxHeartbeats 1000000 in
/-- The last point: the accumulator is accumulated into, read back, and copied to the output block, held at anything. -/
theorem sound_kernel0_C (c : Dev nD) (E : Set ℕ) (i : grid0.Coords)
    (arg1 : Memref sig .tc .vmem S8x256x512 .f32) (harg1 : arg1.IsWhole) (arg2 : Memref sig .tc .vmem S8x256 .f32) (harg2 : arg2.IsWhole)
    (arg3 : Memref sig .tc .vmem S8x256 .f32) (harg3 : arg3.IsWhole) (h1 : ¬cond0_1 i) (h2 : cond0_2 i)
    (x0 : Vec F S8x256x512 .f32) (xs : Vec F S8x256 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (stepB x0 xs) ∗ owns (c : Thread nD τ) arg3 fullShare (stepB x0 xs)) -∗ K ⟨⟩))
      ⊢ wp frame (wpE (defs₀ (F := F)) Variants.none c none) E (cc0__sumsq_kernel i arg1 harg1 arg2 harg2 arg3 harg3) K := by
  simp only [cc0__sumsq_kernel_eq_skeleton]; unfold cc0__sumsq_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | sl_exact h1 | sl_exact h2)
  sl_step
  -- the accumulator's one store, its two loads read as the contents held: the list `stepB` is the canon of
  have hL : sound_kernel0_C.sl.HS0_1 c arg1 harg1 arg3 harg3 x0 xs
      = [⟨rAcc, k0_pay2 (View.ld x0 rBlk) (View.ld xs rAcc)⟩] := by
    unfold sound_kernel0_C.sl.HS0_1
    rw [View.readAt_eq_ld, View.readAt_eq_ld, harg1.read_unread, harg3.read_unread]
  iapply Hk
  isplitl [H0]
  · iexists _; isplitr; · ipureintro; exact harg1.read_unread _
    iexact H0
  isplitl [H1]
  · iexists _; isplitr
    swap; · iexact H1
    ipureintro
    -- the output block's one store covers it, and its payload is the accumulator read back through its own store
    rw [View.read_writes_eq_canon _ _ _ (cover_head _ _), View.canon_unit_zero (S := S8x256) offAcc_zero]
    unfold sound_kernel0_C.sl.v15
    rw [hL, View.readCov_unit_zero (S := S8x256) _ offAcc_zero]
    unfold stepB
    rw [View.canon_unit_zero (S := S8x256) offAcc_zero]
  iexists _; isplitr
  swap; · iexact HS0
  ipureintro
  rw [hL, View.read_writes_eq_canon _ _ _ (cover_head _ _)]
  rfl

end Cert.KernelIdeal.Hand

end
-- ==== Proof.KI.Region0.lean ====
import proofs.«153147_j34445637714659_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The sum-of-squares launch: the accumulator point by point, at the entry contents `V` -/

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditionals over the grid, and where the output window is idle -/

theorem hcond0_1 : ∀ t : Fin cfg0.N, cond0_1 (grid0.coords t) ↔ t.val % 72 = 0 :=
  (by decide +kernel : ∀ t : Fin grid0.N, cond0_1 (grid0.coords t) ↔ t.val % 72 = 0)
theorem hcond0_2 : ∀ t : Fin cfg0.N, cond0_2 (grid0.coords t) ↔ t.val % 72 = 71 :=
  (by decide +kernel : ∀ t : Fin grid0.N, cond0_2 (grid0.coords t) ↔ t.val % 72 = 71)
theorem liveAt0_0 : ∀ t : Fin cfg0.N, cfg0.idle 0 (grid0.coords t) = false := by decide +kernel
theorem idleAt0_1 : ∀ t : Fin cfg0.N, ¬cond0_2 (grid0.coords t) → cfg0.idle 1 (grid0.coords t) = true := by decide +kernel
theorem noFlush0_1 : ∀ t : Fin cfg0.N, ¬cond0_2 (grid0.coords t) → (cfg0.win 1).flush t = false := by decide +kernel
theorem liveAt0_1 : ∀ t : Fin cfg0.N, cond0_2 (grid0.coords t) → cfg0.idle 1 (grid0.coords t) = false := by decide +kernel

/-! ## The accumulator -/

/-- The scratch operand: a whole scoped buffer of the kernel's own. -/
abbrev scM : Memref sig .tc .vmem S8x256 .f32 := Memref.whole cc0_scratch0

/-- What the accumulator holds after the body at position `n`: reset and one block's row sums at the first point,
    then one more block's row sums over what the point before left. -/
def accAt (c : Dev nD) : (n : ℕ) → n < cfg0.N → Vec F S8x256 .f32
  | 0, h => stepA (iblk0 V c 0 ⟨0, h⟩)
  | n + 1, h => stepB (iblk0 V c 0 ⟨n + 1, h⟩) (accAt c n (Nat.lt_of_succ_lt h))

theorem accAt_zero (c : Dev nD) (t : Fin cfg0.N) (hz : t.val = 0) : accAt V c t.val t.isLt = stepA (iblk0 V c 0 t) := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt = stepB (iblk0 V c 0 t) (accAt V c (t.val - 1) (Nat.lt_of_le_of_lt (Nat.sub_le _ _) t.isLt)) := by
  obtain ⟨n, hn⟩ := t
  cases n with
  | zero => exact absurd rfl hz
  | succ n => rfl

/-- The second launch's staging buffers: scoped buffers this kernel does not touch, each whole at some contents. -/
def rest5 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the scratch as an owned memref. -/
theorem PhiA0_eq (c : Dev nD) :
    (Pipeline.ΦA spec0 c : sProp 𝕄)
      = iprop(((∃ d, owns (c : Thread nD τ) scM fullShare d) ∗ rest5 (F := F) c) ∗ (∃ r, prngReg c r)) := by
  unfold Pipeline.ΦA rest5; rw [scopedRest0_eq]; simp only [scM, owns_whole]; try rfl

/-- The invariant before position `n`: before the first point the class's; afterwards the accumulator at what the
    point before left in it. -/
def PhiS (c : Dev nD) : (n : ℕ) → n ≤ cfg0.N → sProp 𝕄
  | 0, _ => Pipeline.ΦA spec0 c
  | n + 1, hn => iprop((owns (c : Thread nD τ) scM fullShare (accAt V c n hn) ∗ rest5 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ rest5 (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ rest5 (F := F) c) ∗ (∃ r, prngReg c r)) := by
  cases n with
  | zero => exact absurd rfl hz
  | succ n => rfl

/-! ## The proof data -/

/-- The proof data of the first launch on core `c`: the arrays as the launch finds them; after the body at point `t`
    the input's buffer at its block and the output's at the accumulator; the invariant carrying the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point: the input's buffer holds its block; the first point resets the accumulator, the last copies
    it to the output's buffer, every point adds its block's row sums; elsewhere the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 72 := lt_of_lt_of_eq t.isLt (show cfg0.N = 72 from N_0)
  rw [show (dat0 V c).leavesExact 0 t = owns (c : Thread nD τ) (st0_0 t) fullShare ((dat0 V c).after 0 t) from by
    unfold Dat.leavesExact; rw [liveAt0_0 t], after0_0]
  by_cases hz : t.val = 0
  · have h1 : cond0_1 (grid0.coords t) := (hcond0_1 t).mpr (by omega)
    have h2 : ¬cond0_2 (grid0.coords t) := fun h => by have := (hcond0_2 t).mp h; omega
    rw [Dat.leavesExact_idle (dat0 V c) 1 t (idleAt0_1 t h2) (noFlush0_1 t h2)]
    rw [accAt_zero V c t hz]
    rw [PhiS_castSucc V c t, PhiS_zero V c _ _ hz, PhiA0_eq]
    iintro ⟨⟨⟨HS0, Hrest⟩, Hg⟩, Ho, ⟨%d0, H0⟩, ⟨%d1, H1⟩⟩
    iapply (sound_kernel0_A c Set.univ (grid0.coords t) _ _ _ _ _ _ h1 h2 (iblk0 V c 0 t) ((dat0 V c).before 1 t d1) _)
    isplitl [H0]; · iexact H0
    isplitl [H1]; · iexact H1
    isplitl [HS0]; · iexact HS0
    iintro ⟨H0, H1, HS0⟩
    isplitl [HS0 Hrest Hg]
    · isplitl [HS0 Hrest]
      · isplitl [HS0]; · iexact HS0
        iexact Hrest
      iexact Hg
    isplitl [Ho]; · iexact Ho
    isplitl [H0]; · iexact H0
    iexists _; iexact H1
  · by_cases hl : t.val = 71
    · have h1 : ¬cond0_1 (grid0.coords t) := fun h => by have := (hcond0_1 t).mp h; omega
      have h2 : cond0_2 (grid0.coords t) := (hcond0_2 t).mpr (by omega)
      rw [show (dat0 V c).leavesExact 1 t = owns (c : Thread nD τ) (st0_1 t) fullShare ((dat0 V c).after 1 t) from by
        unfold Dat.leavesExact; rw [liveAt0_1 t h2], after0_1]
      rw [accAt_pos V c t hz]
      rw [PhiS_castSucc V c t, PhiS_pos V c _ _ hz]
      iintro ⟨⟨⟨HS0, Hrest⟩, Hg⟩, Ho, ⟨%d0, H0⟩, ⟨%d1, H1⟩⟩
      iapply (sound_kernel0_C c Set.univ (grid0.coords t) _ _ _ _ _ _ h1 h2 (iblk0 V c 0 t) _ _)
      isplitl [H0]; · iexact H0
      isplitl [H1]; · iexists _; iexact H1
      isplitl [HS0]; · iexact HS0
      iintro ⟨H0, H1, HS0⟩
      isplitl [HS0 Hrest Hg]
      · isplitl [HS0 Hrest]
        · isplitl [HS0]; · iexact HS0
          iexact Hrest
        iexact Hg
      isplitl [Ho]; · iexact Ho
      isplitl [H0]; · iexact H0
      iexact H1
    · have h1 : ¬cond0_1 (grid0.coords t) := fun h => by have := (hcond0_1 t).mp h; omega
      have h2 : ¬cond0_2 (grid0.coords t) := fun h => by have := (hcond0_2 t).mp h; omega
      rw [Dat.leavesExact_idle (dat0 V c) 1 t (idleAt0_1 t h2) (noFlush0_1 t h2)]
      rw [accAt_pos V c t hz]
      rw [PhiS_castSucc V c t, PhiS_pos V c _ _ hz]
      iintro ⟨⟨⟨HS0, Hrest⟩, Hg⟩, Ho, ⟨%d0, H0⟩, ⟨%d1, H1⟩⟩
      iapply (sound_kernel0_B c Set.univ (grid0.coords t) _ _ _ _ _ _ h1 h2 (iblk0 V c 0 t) ((dat0 V c).before 1 t d1) _ _)
      isplitl [H0]; · iexact H0
      isplitl [H1]; · iexact H1
      isplitl [HS0]; · iexact HS0
      iintro ⟨H0, H1, HS0⟩
      isplitl [HS0 Hrest Hg]
      · isplitl [HS0 Hrest]
        · isplitl [HS0]; · iexact HS0
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem Phi0_out (c : Dev nD) : (dat0 V c).Φ (Fin.last cfg0.N) ⊢ Pipeline.ΦA spec0 c := by
  have ht : (Fin.last cfg0.N).val ≠ 0 := by rw [Fin.val_last]; have : cfg0.N = 72 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, Hrest⟩, Hg⟩
  isplitl [HS0 Hrest]
  · isplitl [HS0]; · iexists _; iexact HS0
    iexact Hrest
  iexact Hg

end Region0

end Cert.KernelIdeal.Hand

end
-- ==== Proof.KI.Region1.lean ====
import proofs.«153147_j34445637714659_1_alg».proof.Proof.Gen.KernelIdeal.Launch
import proofs.«153147_j34445637714659_1_alg».proof.Proof.Gen.KernelIdeal.Skeleton
import proofs.«153147_j34445637714659_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The scaling kernel (the second launch): each block of the array times the gate column, at the entry contents `V` -/

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each buffer whole, through the unit rectangle at zero offsets -/

/-- The offsets of every access of the body are zero. -/
private theorem hz3 : (![0, 0, 0] : Fin 3 → Nat) = fun _ => 0 := funext fun a => by fin_cases a <;> rfl

abbrev r1_0 : Rect S8x256x512 := Rect.unit (s := S8x256x512) ![0, 0, 0] S8x256x512.size inb_S8x256x512_S8x256x512_0_0_0
abbrev r1_1 : Rect S8x256x1 := Rect.unit (s := S8x256x1) ![0, 0, 0] S8x256x1.size inb_S8x256x1_S8x256x1_0_0_0

/-- What the body leaves in the output block: the product of the input block with the gate column broadcast along the block's last axis. -/
def out1_2 (x0 : Vec F S8x256x512 .f32) (x1 : Vec F S8x256x1 .f32) : Vec F S8x256x512 .f32 :=
  View.canon [⟨r1_0, k1_pay1 (View.ld x0 r1_0) (View.ld x1 r1_1)⟩]

/-- The one store is through the whole buffer and the loads read their buffers whole: what is left is the payload of the two blocks. -/
theorem out1_2_eq (x0 : Vec F S8x256x512 .f32) (x1 : Vec F S8x256x1 .f32) : out1_2 x0 x1 = k1_pay1 x0 x1 := by
  unfold out1_2
  rw [View.canon_unit_zero hz3]
  rw [View.ld_unit_zero (S := S8x256x512) hz3, View.ld_unit_zero (S := S8x256x1) hz3]

/-- The one store covers the output buffer: its rectangle is the whole shape. -/
private theorem cover1_2 (p0 : Vec F S8x256x512 .f32) (y : S8x256x512.Idx) :
    ∃ pc ∈ ([⟨r1_0, p0⟩] : List (View.Piece (Elt F) S8x256x512 .f32)), y ∈ pc.1.set :=
  ⟨_, List.mem_singleton_self _, View.mem_set_unit_zero hz3 inb_S8x256x512_S8x256x512_0_0_0 y⟩

/-! ## The body's triple -/

set_option maxHeartbeats 1000000 in
/-- The body on whole staging memrefs, the two inputs' at read contents `x0`, `x1` and the output's at anything, runs to
    the continuation holding the inputs' as they were and the output's at `out1_2 x0 x1`. -/
private theorem sound_kernel1 (c : Dev nD) (E : Set ℕ) (i : grid1.Coords)
    (arg1 : Memref sig .tc .vmem S8x256x512 .f32) (harg1 : arg1.IsWhole)
    (arg2 : Memref sig .tc .vmem S8x256x1 .f32) (harg2 : arg2.IsWhole)
    (arg3 : Memref sig .tc .vmem S8x256x512 .f32) (harg3 : arg3.IsWhole)
    (x0 : Vec F S8x256x512 .f32) (x1 : Vec F S8x256x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## What the body finds in its input windows -/

/-- Input window 0's current staging buffer holds its block at every point: the window is uncut, never idle, and the body leaves the block in place. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the gate column, one block for the whole grid) likewise: fetched at the first point only, its block index never moves, so the buffer holds the block at every point. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
import proofs.«153147_j34445637714659_1_alg».proof.Proof.KI.Region0
import proofs.«153147_j34445637714659_1_alg».proof.Proof.KI.Region1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of the whole program: the buffers' contents at every boundary between its host stretches and its two launches -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the reshape of the argument (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the launches (the second launch's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the second launch's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last reshape (the return). -/
abbrev W7 : Dev nD → Valuation τ sig (Elt F) := fun c => StableHlo.after hostOps2 (W6 m ρ c)

/-! ## The arguments end as launched: no host operation writes one, and neither launch's arrays include one -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi0_in (V1 m ρ) c)
    unfold Pipeline.ΦA
    iintro ⟨Hp, -, Hr⟩
    isplitl [Hr]; · iexact Hr
    iexact Hp
  hout c := by
    rw [Pipeline.ownSems0_none]
    refine (Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Hand

end
-- ==== Proof.KI.Val0.lean ====
import proofs.«153147_j34445637714659_1_alg».proof.Proof.KI.Region0
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # What the first launch leaves in its output array, over the extended reals -/

/-- The sum of the squares of a channel's elements. -/
def sumsqOf (x : Vec Ideal S8x256x36864 .f32) : Vec Ideal S8x256 .f32 :=
  fun j => ∑ k : Fin 36864, (x (ix3 (j 0 : Fin 8) (j 1 : Fin 256) k) : EReal) * x (ix3 (j 0 : Fin 8) (j 1 : Fin 256) k)

theorem sumsqOf_apply (x : Vec Ideal S8x256x36864 .f32) (b : Fin 8) (ch : Fin 256) :
    sumsqOf x (ix2 b ch) = ∑ k : Fin 36864, (x (ix3 b ch k) : EReal) * x (ix3 b ch k) := rfl

/-! ## One point's payload at an element -/

/-- The index the lane reduction reads at lane `l` of row `(b, ch)`. -/
private theorem lift_ix (b : Fin 8) (ch : Fin 256) (l : Fin 512) :
    reduces_S8x256x512_S8x256.lift (ix2 b ch) l = ix3 b ch l := by
  funext a
  match a with
  | ⟨0, _⟩ => rfl
  | ⟨1, _⟩ => rfl
  | ⟨2, _⟩ => rfl

/-- The lane reduction from zero, at a row: the sum over the 512 lanes. -/
private theorem lanesum_apply (v : FVec Ideal S8x256x512 .f32) (hφ : FKind.Formats .f32)
    (hacc : (0x00000000#32 : BitVec 32) = 0x00000000#32) (b : Fin 8) (ch : Fin 256) :
    multiReduction (F := Ideal) .add [2] S8x256 v 0x00000000#32 reduces_S8x256x512_S8x256 hφ hacc (ix2 b ch)
      = ∑ l : Fin 512, (v (ix3 b ch l) : EReal) :=
  (Ideal.multiReduction_add_single v 0x00000000#32 reduces_S8x256x512_S8x256 hφ hacc (ix2 b ch)).trans
    (Finset.sum_congr rfl fun l _ => congrArg v (lift_ix b ch l))

/-- A point's new accumulator at a row: the old one plus the block's row sum of squares. -/
private theorem pay2_apply (x0 : Vec Ideal S8x256x512 .f32) (xs : Vec Ideal S8x256 .f32) (b : Fin 8) (ch : Fin 256) :
    k0_pay2 x0 xs (ix2 b ch) = (xs (ix2 b ch) : EReal) + ∑ l : Fin 512, (x0 (ix3 b ch l) : EReal) * x0 (ix3 b ch l) := by
  unfold k0_pay2
  simp only [shapeCast_self]
  rw [addf_apply]
  exact congrArg (fun z : EReal => (xs (ix2 b ch) : EReal) + z) ((lanesum_apply _ _ _ b ch).trans (Finset.sum_congr rfl fun l _ => rfl))

/-- The reset block is zero everywhere. -/
private theorem pay1_apply (b : Fin 8) (ch : Fin 256) : (k0_pay1 (F := Ideal)) (ix2 b ch) = (0 : EReal) := by
  unfold k0_pay1
  simp only [shapeCast_self]
  exact Ideal.ofBits_zero_f32

/-! ## The input block at a point, read off the array -/

/-- The input window's block index at point `t`: the first block of the two leading axes, block `t` of the last. -/
private theorem idx_in : ∀ t : Fin cfg0.N, win0_0.index t (0 : Fin 3) = 0 ∧ win0_0.index t (1 : Fin 3) = 0
    ∧ win0_0.index t (2 : Fin 3) = t.val :=
  (by decide +kernel : ∀ t : Fin grid0.N, _)

section Blocks
variable (V : (c : Dev nD) → (b : Ref sig .tc) → Buf (Elt Ideal) ((c : Thread nD τ).loc b)) (c : Dev nD)

/-- Lane `l` of the block at point `t` is element `512 t + l` of the channel. -/
private theorem iblk0_apply (t : Fin cfg0.N) (b : Fin 8) (ch : Fin 256) (l : Fin 512) (h : 512 * t.val + l.val < 36864) :
    iblk0 V c 0 t (ix3 b ch l) = V c main_v0 (ix3 b ch ⟨512 * t.val + l.val, h⟩) := by
  obtain ⟨e0, e1, e2⟩ := idx_in t
  unfold iblk0
  rw [View.read_apply]
  show V c main_v0 (((cfg0.win 0).blk t).view.emb (ix3 b ch l)) = V c main_v0 (ix3 b ch ⟨512 * t.val + l.val, h⟩)
  refine congrArg (V c main_v0) ?_
  funext a; apply Fin.ext
  match a with
  | ⟨0, _⟩ => show win0_0.index t (0 : Fin 3) * 8 + 1 * b.val = b.val; omega
  | ⟨1, _⟩ => show win0_0.index t (1 : Fin 3) * 256 + 1 * ch.val = ch.val; omega
  | ⟨2, _⟩ => show win0_0.index t (2 : Fin 3) * 512 + 1 * l.val = 512 * t.val + l.val; omega

end Blocks

/-! ## The accumulator after each point, and the 72 blocks regrouped into the channel -/

/-- Element `k` of channel `(b, ch)` squared, zero past the channel's end. -/
private def sqAt (x : Vec Ideal S8x256x36864 .f32) (b : Fin 8) (ch : Fin 256) (k : ℕ) : EReal :=
  if h : k < 36864 then (x (ix3 b ch ⟨k, h⟩) : EReal) * x (ix3 b ch ⟨k, h⟩) else 0

/-- The first point's accumulator at a row: the block's row sum of squares, over the zero it was reset to. -/
private theorem stepA_apply (x0 : Vec Ideal S8x256x512 .f32) (b : Fin 8) (ch : Fin 256) :
    (stepA x0 (ix2 b ch) : EReal) = ∑ l : Fin 512, (x0 (ix3 b ch l) : EReal) * x0 (ix3 b ch l) := by
  rw [stepA_eq, pay2_apply, pay1_apply, zero_add]

/-- A later point's accumulator at a row: what it held plus the block's row sum of squares. -/
private theorem stepB_apply (x0 : Vec Ideal S8x256x512 .f32) (xs : Vec Ideal S8x256 .f32) (b : Fin 8) (ch : Fin 256) :
    (stepB x0 xs (ix2 b ch) : EReal) = (xs (ix2 b ch) : EReal) + ∑ l : Fin 512, (x0 (ix3 b ch l) : EReal) * x0 (ix3 b ch l) := by
  rw [stepB_eq, pay2_apply]

section Acc
variable (V : (c : Dev nD) → (b : Ref sig .tc) → Buf (Elt Ideal) ((c : Thread nD τ).loc b)) (c : Dev nD)

/-- The row sum of squares of the block at point `t` is the sum of the channel's squares over that block's 512 places. -/
private theorem blk_sum (t : Fin cfg0.N) (b : Fin 8) (ch : Fin 256) (x0 : Vec Ideal S8x256x512 .f32) (hx : x0 = iblk0 V c 0 t) :
    ∑ l : Fin 512, (x0 (ix3 b ch l) : EReal) * x0 (ix3 b ch l)
      = ∑ l : Fin 512, sqAt (V c main_v0) b ch (512 * t.val + l.val) := by
  subst hx
  have hN : t.val < 72 := lt_of_lt_of_eq t.isLt (show cfg0.N = 72 from N_0)
  refine Finset.sum_congr rfl fun l _ => ?_
  have h : 512 * t.val + l.val < 36864 := by have := l.isLt; omega
  rw [iblk0_apply V c t b ch l h]
  unfold sqAt
  rw [dif_pos h]

/-- After point `n` the accumulator holds, at each row, the sum of the channel's squares over the first `n + 1` blocks. -/
private theorem accAt_apply (b : Fin 8) (ch : Fin 256) : ∀ (n : ℕ) (h : n < cfg0.N),
    (accAt V c n h (ix2 b ch) : EReal) = ∑ t ∈ Finset.range (n + 1), ∑ l : Fin 512, sqAt (V c main_v0) b ch (512 * t + l.val)
  | 0, h => by
    rw [Finset.sum_range_one]
    exact (stepA_apply (iblk0 V c 0 ⟨0, h⟩) b ch).trans (blk_sum V c ⟨0, h⟩ b ch _ rfl)
  | n + 1, h => by
    refine (stepB_apply (iblk0 V c 0 ⟨n + 1, h⟩) (accAt V c n (Nat.lt_of_succ_lt h)) b ch).trans ?_
    rw [accAt_apply b ch n (Nat.lt_of_succ_lt h), blk_sum V c ⟨n + 1, h⟩ b ch _ rfl, Finset.sum_range_succ _ (n + 1)]

/-- 72 blocks of 512 are the 36864 places of the channel, in order. -/
private theorem regroup (g : ℕ → EReal) :
    ∑ t ∈ Finset.range 72, ∑ l : Fin 512, g (512 * t + l.val) = ∑ k : Fin 36864, g k.val := by
  rw [← Fin.sum_univ_eq_sum_range (fun t => ∑ l : Fin 512, g (512 * t + l.val)) 72,
    ← Fintype.sum_prod_type' (f := fun (t : Fin 72) (l : Fin 512) => g (512 * t.val + l.val))]
  refine Eq.trans (Finset.sum_congr rfl fun p _ => ?_)
    (Equiv.sum_comp (finProdFinEquiv (m := 72) (n := 512)) (fun k : Fin (72 * 512) => g k.val))
  show g (512 * p.1.val + p.2.val) = g (p.2.val + 512 * p.1.val)
  rw [Nat.add_comm]

/-- After the last point the accumulator holds each channel's sum of squares. -/
private theorem accAt_last (t : Fin cfg0.N) (ht : t.val = 71) : accAt V c t.val t.isLt = sumsqOf (V c main_v0) := by
  obtain ⟨n, h⟩ := t
  obtain rfl : n = 71 := ht
  funext j
  obtain ⟨b, ch, rfl⟩ : ∃ (b : Fin 8) (ch : Fin 256), j = ix2 b ch := ⟨j 0, j 1, eq_ix2 j⟩
  rw [sumsqOf_apply]
  refine (accAt_apply V c b ch 71 h).trans ((regroup (sqAt (V c main_v0) b ch)).trans (Finset.sum_congr rfl fun k _ => ?_))
  unfold sqAt
  rw [dif_pos k.isLt]

end Acc

/-! ## The output array after the run -/

/-- The output window's block index is zero on both axes at every point: its one block is the whole array. -/
private theorem idx_out : ∀ t : Fin cfg0.N, win0_1.index t (0 : Fin 2) = 0 ∧ win0_1.index t (1 : Fin 2) = 0 :=
  (by decide +kernel : ∀ t : Fin grid0.N, _)

/-- An index of the output array is in point `t`'s block iff each coordinate is in the block's range on its axis. -/
private theorem mem_out (t : Fin cfg0.N) (i : S8x256.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v1).slice (win0_1.rect t)).set ↔ _
  rw [View.set_slice_whole, Rect.mem_set_unit]
  exact Iff.rfl

/-- A whole [8,256] buffer handed to the write-back is the output array's block read off that buffer's contents. -/
private theorem cut_eq_read (G : Vec Ideal S8x256 .f32) (t : Fin cfg0.N) :
    (cfg0.win 1).cut (grid0.coords t) G = ((cfg0.win 1).blk t).view.read (Elt Ideal) G := by
  obtain ⟨e0, e1⟩ := idx_out t
  funext y
  rw [View.read_apply]
  show G y = G (((cfg0.win 1).blk t).view.emb y)
  refine congrArg G ?_
  funext a; apply Fin.ext
  match a with
  | ⟨0, _⟩ => show (y 0).val = win0_1.index t (0 : Fin 2) * 8 + 1 * (y 0).val; omega
  | ⟨1, _⟩ => show (y 1).val = win0_1.index t (1 : Fin 2) * 256 + 1 * (y 1).val; omega

section Final
variable (V : (c : Dev nD) → (b : Ref sig .tc) → Buf (Elt Ideal) ((c : Thread nD τ).loc b)) (c : Dev nD)

/-- The one write-back, at the last point, writes the channels' sums of squares, read through the output's block. -/
private theorem flushed_eq (t : Fin cfg0.N) (hf : (cfg0.win 1).flush t = true) :
    (dat0 (F := Ideal) V c).flushed 1 t = ((cfg0.win 1).blk t).view.read (Elt Ideal) (sumsqOf (V c main_v0)) := by
  have hN : cfg0.N = 72 := N_0
  have h71 : t.val = 71 := by have := (flush0_1 t).mp hf; have := t.isLt; omega
  show (cfg0.win 1).cut (grid0.coords t) ((dat0 (F := Ideal) V c).after 1 t) = _
  rw [after0_1, accAt_last V c t h71]
  exact cut_eq_read _ t

/-- After the last point the output array holds each channel's sum of squares: the accumulator after point `n` is the sum
    over the first `n + 1` blocks of 512, the 72 blocks make up the channel, and the last point copies the accumulator out. -/
theorem sumsq_final (V : (c : Dev nD) → (b : Ref sig .tc) → Buf (Elt Ideal) ((c : Thread nD τ).loc b)) (c : Dev nD) :
    (dat0 (F := Ideal) V c).arrAt 1 cfg0.N = sumsqOf (V c main_v0) :=
  (dat0 (F := Ideal) V c).arrAt_eq_of_cover 1 (sumsqOf (V c main_v0)) (flushed_eq V c) fun i => by
    have hN : cfg0.N = 72 := N_0
    refine ⟨⟨71, by omega⟩, (flush0_1 _).mpr rfl, ?_⟩
    rw [mem_out]
    obtain ⟨e0, e1⟩ := idx_out ⟨71, by omega⟩
    intro a
    match a with
    | ⟨0, _⟩ =>
      show win0_1.index ⟨71, _⟩ (0 : Fin 2) * 8 ≤ (i 0).val ∧ (i 0).val < win0_1.index ⟨71, _⟩ (0 : Fin 2) * 8 + 8
      have : (i 0).val < 8 := (i 0).isLt
      omega
    | ⟨1, _⟩ =>
      show win0_1.index ⟨71, _⟩ (1 : Fin 2) * 256 ≤ (i 1).val ∧ (i 1).val < win0_1.index ⟨71, _⟩ (1 : Fin 2) * 256 + 256
      have : (i 1).val < 256 := (i 1).isLt
      omega

end Final

end Cert.KernelIdeal.Hand

end
-- ==== Proof.KI.Val1.lean ====
import proofs.«153147_j34445637714659_1_alg».proof.Proof.KI.Region1
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # What the second launch leaves in its output array, over the extended reals -/

/-- Each element of the array times its channel's gate. -/
def scaledOf (x : Vec Ideal S8x256x36864 .f32) (g : Vec Ideal S8x256x1 .f32) : Vec Ideal S8x256x36864 .f32 :=
  fun i => (x i : EReal) * g (ix3 (n0 := 8) (n1 := 256) (i 0) (i 1) (0 : Fin 1))

theorem scaledOf_apply (x : Vec Ideal S8x256x36864 .f32) (g : Vec Ideal S8x256x1 .f32) (b : Fin 8) (ch : Fin 256) (k : Fin 36864) :
    scaledOf x g (ix3 b ch k) = (x (ix3 b ch k) : EReal) * g (ix3 b ch (0 : Fin 1)) := rfl

/-! ## The body's payload at an index -/

/-- The payload at an index of the block: the input block's element there times the gate column's element of the same
    leading coordinates (the casts to the same shape are identities; the column is broadcast along the last axis). -/
private theorem pay1_apply (x0 : Vec Ideal S8x256x512 .f32) (x1 : Vec Ideal S8x256x1 .f32) (b : Fin 8) (ch : Fin 256) (l : Fin 512) :
    k1_pay1 x0 x1 (ix3 b ch l) = (x0 (ix3 b ch l) : EReal) * x1 (ix3 b ch (0 : Fin 1)) := by
  simp only [k1_pay1, shapeCast_self]
  rw [mulf_apply]
  congr 1
  refine broadcastTo_apply x1 _ (ix3 b ch l) (ix3 b ch (0 : Fin 1)) fun a => ?_
  match a with
  | ⟨0, _⟩ => rfl
  | ⟨1, _⟩ => rfl
  | ⟨2, _⟩ => rfl

/-! ## The blocks of the three windows -/

/-- The grid has 72 points. -/
private theorem lt72 (t : Fin cfg1.N) : t.val < 72 := Nat.lt_of_lt_of_eq t.isLt N_1

/-- The printed index maps, decided over the grid: the input block and the output block are block `t` of the last axis,
    the gate column is always its one block. -/
private theorem idx_facts : ∀ t : Fin cfg1.N,
    win1_0.index t (0 : Fin 3) = 0 ∧ win1_0.index t (1 : Fin 3) = 0 ∧ win1_0.index t (2 : Fin 3) = t.val
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = t.val :=
  (by decide +kernel : ∀ t : Fin grid1.N, _)

/-- At a point `t`, the payload of the two input blocks of any arrays `X`, `G` is block `t` of the scaled array: the
    input block and the output block sit at the same place of the long axis, and the gate column's block is the column. -/
private theorem blk_eq (X : Vec Ideal S8x256x36864 .f32) (G : Vec Ideal S8x256x1 .f32) (t : Fin cfg1.N) (j : S8x256x512.Idx) :
    k1_pay1 (fun y : S8x256x512.Idx => X (((cfg1.win 0).blk t).view.emb y)) (fun y : S8x256x1.Idx => G (((cfg1.win 1).blk t).view.emb y)) j
      = scaledOf X G (((cfg1.win 2).blk t).view.emb j) := by
  obtain ⟨b, ch, l, rfl⟩ : ∃ (b : Fin 8) (ch : Fin 256) (l : Fin 512), j = ix3 b ch l := ⟨j 0, j 1, j 2, eq_ix3 j⟩
  rw [pay1_apply]
  obtain ⟨a00, a01, a02, a10, a11, a12, a20, a21, a22⟩ := idx_facts t
  have ht : t.val < 72 := lt72 t
  have hl : l.val < 512 := l.isLt
  have hk : t.val * 512 + l.val < 36864 := by omega
  have he2 : ((cfg1.win 2).blk t).view.emb (ix3 b ch l) = ix3 b ch (⟨t.val * 512 + l.val, hk⟩ : Fin 36864) := by
    funext a; apply Fin.ext
    match a with
    | ⟨0, _⟩ => show win1_2.index t (0 : Fin 3) * 8 + 1 * b.val = b.val; omega
    | ⟨1, _⟩ => show win1_2.index t (1 : Fin 3) * 256 + 1 * ch.val = ch.val; omega
    | ⟨2, _⟩ => show win1_2.index t (2 : Fin 3) * 512 + 1 * l.val = t.val * 512 + l.val; omega
  have he0 : ((cfg1.win 0).blk t).view.emb (ix3 b ch l) = ix3 b ch (⟨t.val * 512 + l.val, hk⟩ : Fin 36864) := by
    funext a; apply Fin.ext
    match a with
    | ⟨0, _⟩ => show win1_0.index t (0 : Fin 3) * 8 + 1 * b.val = b.val; omega
    | ⟨1, _⟩ => show win1_0.index t (1 : Fin 3) * 256 + 1 * ch.val = ch.val; omega
    | ⟨2, _⟩ => show win1_0.index t (2 : Fin 3) * 512 + 1 * l.val = t.val * 512 + l.val; omega
  have he1 : ((cfg1.win 1).blk t).view.emb (ix3 b ch (0 : Fin 1)) = ix3 b ch (0 : Fin 1) := by
    funext a; apply Fin.ext
    match a with
    | ⟨0, _⟩ => show win1_1.index t (0 : Fin 3) * 8 + 1 * b.val = b.val; omega
    | ⟨1, _⟩ => show win1_1.index t (1 : Fin 3) * 256 + 1 * ch.val = ch.val; omega
    | ⟨2, _⟩ => show win1_1.index t (2 : Fin 3) * 1 + 1 * (0 : Fin 1).val = (0 : Fin 1).val; omega
  rw [he2, scaledOf_apply]
  show (X (((cfg1.win 0).blk t).view.emb (ix3 b ch l)) : EReal) * G (((cfg1.win 1).blk t).view.emb (ix3 b ch (0 : Fin 1))) = _
  rw [he0, he1]

/-- WHAT POINT `t` WRITES BACK is block `t` of the scaled array. -/
private theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (scaledOf (V c main_v0) (V c main_v23)) := by
  show (cfg1.win 2).cut (grid1.coords t) ((dat1 (F := Ideal) V c).after 2 t) = _
  rw [after1_2, out1_2_eq]
  funext j
  exact blk_eq (V c main_v0) (V c main_v23) t j

/-! ## The output's blocks tile its array -/

/-- An index of the array is in point `t`'s block iff each coordinate is in the block's range on its axis. -/
private theorem mem_blk2 (t : Fin cfg1.N) (i : S8x256x36864.Idx) :
    i ∈ ((cfg1.win 2).blk t).view.set ↔ ∀ a : Fin 3, win1_2.index t a * S8x256x512.size a ≤ (i a).val ∧ (i a).val < win1_2.index t a * S8x256x512.size a + S8x256x512.size a := by
  show i ∈ ((View.whole main_v24).slice (win1_2.rect t)).set ↔ _
  rw [View.set_slice_whole, Rect.mem_set_unit]
  exact Iff.rfl

/-- Every index of the array is in the block of the point its last coordinate, divided by the block's extent, names. -/
private theorem cover2 (i : S8x256x36864.Idx) :
    ∃ t : Fin cfg1.N, (cfg1.win 2).flush t = true ∧ i ∈ ((cfg1.win 2).blk t).view.set := by
  have hi0 : (i 0).val < 8 := (i 0).isLt
  have hi1 : (i 1).val < 256 := (i 1).isLt
  have hi2 : (i 2).val < 36864 := (i 2).isLt
  have hq : (i 2).val / 512 < cfg1.N := by
    show (i 2).val / 512 < grid1.N
    rw [N_1]; omega
  obtain ⟨-, -, -, -, -, -, a20, a21, a22⟩ := idx_facts ⟨(i 2).val / 512, hq⟩
  have a22' : win1_2.index ⟨(i 2).val / 512, hq⟩ (2 : Fin 3) = (i 2).val / 512 := a22
  refine ⟨⟨(i 2).val / 512, hq⟩, flush1_2 _, ?_⟩
  rw [mem_blk2]
  intro a
  match a with
  | ⟨0, _⟩ => show win1_2.index ⟨(i 2).val / 512, hq⟩ (0 : Fin 3) * 8 ≤ (i 0).val ∧ (i 0).val < win1_2.index ⟨(i 2).val / 512, hq⟩ (0 : Fin 3) * 8 + 8; omega
  | ⟨1, _⟩ => show win1_2.index ⟨(i 2).val / 512, hq⟩ (1 : Fin 3) * 256 ≤ (i 1).val ∧ (i 1).val < win1_2.index ⟨(i 2).val / 512, hq⟩ (1 : Fin 3) * 256 + 256; omega
  | ⟨2, _⟩ => show win1_2.index ⟨(i 2).val / 512, hq⟩ (2 : Fin 3) * 512 ≤ (i 2).val ∧ (i 2).val < win1_2.index ⟨(i 2).val / 512, hq⟩ (2 : Fin 3) * 512 + 512; omega

/-- After the last point the output array holds every element of the input array times its channel's gate: each block is
    that function's restriction, and the 72 blocks tile the array. -/
theorem scaled_final (V : (c : Dev nD) → (b : Ref sig .tc) → Buf (Elt Ideal) ((c : Thread nD τ).loc b)) (c : Dev nD) :
    (dat1 (F := Ideal) V c).arrAt 2 cfg1.N = scaledOf (V c main_v0) (V c main_v23) :=
  (dat1 (F := Ideal) V c).arrAt_eq_of_cover 2 (scaledOf (V c main_v0) (V c main_v23)) (fun t _ => flushed_eq V c t) cover2

end Cert.KernelIdeal.Hand

end
-- ==== Proof.KI.Layout.lean ====
import proofs.«153147_j34445637714659_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # The program's three reshapes read at an index, and a channel's 36864 positions as 192 rows of 192 -/

theorem lt_36864 (h w : Fin 192) : 192 * h.val + w.val < 36864 := by have := h.isLt; have := w.isLt; omega

/-- The merge of the two spatial axes: position (h, w) is element 192·h + w of the channel. -/
theorem merge_apply (x : Vec Ideal S8x256x192x192 .f32) (b : Fin 8) (ch : Fin 256) (h w : Fin 192) :
    shapeCast S8x256x36864 x shapeCasts_S8x256x192x192_S8x256x36864 (ix3 b ch ⟨192 * h.val + w.val, lt_36864 h w⟩) = x (ix4 b ch h w) :=
  shapeCast_apply x _ _ _ (by
    rw [Shape.rowMajor_val_four, Shape.rowMajor_val_three]
    show ((b.val * 256 + ch.val) * 192 + h.val) * 192 + w.val = (b.val * 256 + ch.val) * 36864 + (192 * h.val + w.val)
    omega)

/-- The split back. -/
theorem split_apply (y : Vec Ideal S8x256x36864 .f32) (b : Fin 8) (ch : Fin 256) (h w : Fin 192) :
    shapeCast S8x256x192x192 y shapeCasts_S8x256x36864_S8x256x192x192 (ix4 b ch h w) = y (ix3 b ch ⟨192 * h.val + w.val, lt_36864 h w⟩) :=
  shapeCast_apply y _ _ _ (by
    rw [Shape.rowMajor_val_four, Shape.rowMajor_val_three]
    show (b.val * 256 + ch.val) * 36864 + (192 * h.val + w.val) = ((b.val * 256 + ch.val) * 192 + h.val) * 192 + w.val
    omega)

/-- The gate as a column: a trailing axis of extent one. -/
theorem column_apply (g : Vec Ideal S8x256 .f32) (b : Fin 8) (ch : Fin 256) :
    shapeCast S8x256x1 g shapeCasts_S8x256_S8x256x1 (ix3 b ch (0 : Fin 1)) = g (ix2 b ch) :=
  shapeCast_apply g _ _ _ (by
    rw [Shape.rowMajor_val_three, Shape.rowMajor_val_two]
    show b.val * 256 + ch.val = (b.val * 256 + ch.val) * 1 + (0 : Fin 1).val
    show b.val * 256 + ch.val = (b.val * 256 + ch.val) * 1 + 0
    omega)

/-- Row `h`, column `w` ↔ position `192·h + w`: quotient and remainder by the row length undo it. -/
private def rowsEquiv : Fin 192 × Fin 192 ≃ Fin 36864 where
  toFun p := ⟨192 * p.1.val + p.2.val, lt_36864 p.1 p.2⟩
  invFun k := (⟨k.val / 192, by have := k.isLt; omega⟩, ⟨k.val % 192, Nat.mod_lt _ (by decide)⟩)
  left_inv p := by
    obtain ⟨h, w⟩ := p
    have hh := h.isLt
    have hw := w.isLt
    apply Prod.ext <;> apply Fin.ext
    · show (192 * h.val + w.val) / 192 = h.val
      omega
    · show (192 * h.val + w.val) % 192 = w.val
      omega
  right_inv k := by
    apply Fin.ext
    show 192 * (k.val / 192) + k.val % 192 = k.val
    omega

/-- A sum over a channel's 36864 elements is the sum over its 192 rows of the sums over each row's 192 elements. -/
theorem sum_rows (f : Fin 36864 → EReal) :
    ∑ k : Fin 36864, f k = ∑ h : Fin 192, ∑ w : Fin 192, f ⟨192 * h.val + w.val, lt_36864 h w⟩ :=
  (rowsEquiv.sum_comp f).symm.trans (Fintype.sum_prod_type _)

end Cert.KernelIdeal.Hand

end
-- ==== Proof.Spec.lean ====
import proofs.«153147_j34445637714659_1_alg».proof.Proof.Gen.KernelIdeal
import proofs.«153147_j34445637714659_1_alg».proof.Proof.Gen.ReferenceIdeal

noncomputable section

open Idealize.ShloMosaic Idealize.ShloMosaic.TcCoe Idealize.SL.Sem

variable {F : FTy → Type} [FloatOps F]

/-! # The gate, in each program's own spelling of the shapes: one function -/

namespace Cert.KernelIdeal.Spec
open Cert.KernelIdeal Cert.KernelIdeal.Gen

/-- The squeeze layer before its rectifier: the normalised norms `g / (g + ε)` with `g` the square root of the sums of
    squares, times the transposed first weight matrix, plus the first bias along the rows. -/
def squeeze (ss : (⟨S8x256, .f32⟩ : BufTy).Contents (Elt F)) (a1 : (⟨S16x256, .f32⟩ : BufTy).Contents (Elt F)) (a2 : (⟨S16, .f32⟩ : BufTy).Contents (Elt F)) :
    (⟨S8x16, .f32⟩ : BufTy).Contents (Elt F) :=
  addf (Host.dotGeneral dot_S8x256_S256x16_S8x16_1_0_0_1_n_n none (Host.divf (Host.sqrt ss) (addf (Host.sqrt ss) (broadcastInDim S8x256 ![] bcast_S_S8x256 (constant S_ .f32 0x358637BD#32)))) (transpose S256x16 [1, 0] a1 transposes_S16x256_S256x16_1_0)) (broadcastInDim S8x16 ![0, 1] bcast_S1x16_S8x16_0_1 (broadcastInDim S1x16 ![1] bcast_S16_S1x16_1 a2))

/-- The rectifier: the maximum with zero. -/
def rect (v : (⟨S8x16, .f32⟩ : BufTy).Contents (Elt F)) : (⟨S8x16, .f32⟩ : BufTy).Contents (Elt F) :=
  maximumf v (broadcastInDim S8x16 ![] bcast_S_S8x16 (constant S_ .f32 0x00000000#32))

/-- The excitation layer and the logistic function `1 / (1 + exp (−z))`. -/
def excite (h : (⟨S8x16, .f32⟩ : BufTy).Contents (Elt F)) (a3 : (⟨S256x16, .f32⟩ : BufTy).Contents (Elt F)) (a4 : (⟨S256, .f32⟩ : BufTy).Contents (Elt F)) :
    (⟨S8x256, .f32⟩ : BufTy).Contents (Elt F) :=
  Host.divf (broadcastInDim S8x256 ![] bcast_S_S8x256 (constant S_ .f32 0x3F800000#32)) (addf (broadcastInDim S8x256 ![] bcast_S_S8x256 (constant S_ .f32 0x3F800000#32)) (Host.exp (Host.negf (addf (Host.dotGeneral dot_S8x16_S16x256_S8x256_1_0_0_1_n_n none h (transpose S16x256 [1, 0] a3 transposes_S256x16_S16x256_1_0)) (broadcastInDim S8x256 ![0, 1] bcast_S1x256_S8x256_0_1 (broadcastInDim S1x256 ![1] bcast_S256_S1x256_1 a4))))))

/-- The gate of the block: a function of the per-channel sums of squares and of the four parameter arrays. -/
def gate (ss : (⟨S8x256, .f32⟩ : BufTy).Contents (Elt F)) (a1 : (⟨S16x256, .f32⟩ : BufTy).Contents (Elt F)) (a2 : (⟨S16, .f32⟩ : BufTy).Contents (Elt F))
    (a3 : (⟨S256x16, .f32⟩ : BufTy).Contents (Elt F)) (a4 : (⟨S256, .f32⟩ : BufTy).Contents (Elt F)) : (⟨S8x256, .f32⟩ : BufTy).Contents (Elt F) :=
  excite (rect (squeeze ss a1 a2)) a3 a4

end Cert.KernelIdeal.Spec

namespace Cert.ReferenceIdeal.Spec
open Cert.ReferenceIdeal Cert.ReferenceIdeal.Gen

/-- The squeeze layer before its rectifier: the normalised norms `g / (g + ε)` with `g` the square root of the sums of
    squares, times the transposed first weight matrix, plus the first bias along the rows. -/
def squeeze (ss : (⟨S8x256, .f32⟩ : BufTy).Contents (Elt F)) (a1 : (⟨S16x256, .f32⟩ : BufTy).Contents (Elt F)) (a2 : (⟨S16, .f32⟩ : BufTy).Contents (Elt F)) :
    (⟨S8x16, .f32⟩ : BufTy).Contents (Elt F) :=
  addf (Host.dotGeneral dot_S8x256_S256x16_S8x16_1_0_0_1_n_n none (Host.divf (Host.sqrt ss) (addf (Host.sqrt ss) (broadcastInDim S8x256 ![] bcast_S_S8x256 (constant S_ .f32 0x358637BD#32)))) (transpose S256x16 [1, 0] a1 transposes_S16x256_S256x16_1_0)) (broadcastInDim S8x16 ![0, 1] bcast_S1x16_S8x16_0_1 (broadcastInDim S1x16 ![1] bcast_S16_S1x16_1 a2))

/-- The rectifier: the maximum with zero. -/
def rect (v : (⟨S8x16, .f32⟩ : BufTy).Contents (Elt F)) : (⟨S8x16, .f32⟩ : BufTy).Contents (Elt F) :=
  maximumf v (broadcastInDim S8x16 ![] bcast_S_S8x16 (constant S_ .f32 0x00000000#32))

/-- The excitation layer and the logistic function `1 / (1 + exp (−z))`. -/
def excite (h : (⟨S8x16, .f32⟩ : BufTy).Contents (Elt F)) (a3 : (⟨S256x16, .f32⟩ : BufTy).Contents (Elt F)) (a4 : (⟨S256, .f32⟩ : BufTy).Contents (Elt F)) :
    (⟨S8x256, .f32⟩ : BufTy).Contents (Elt F) :=
  Host.divf (broadcastInDim S8x256 ![] bcast_S_S8x256 (constant S_ .f32 0x3F800000#32)) (addf (broadcastInDim S8x256 ![] bcast_S_S8x256 (constant S_ .f32 0x3F800000#32)) (Host.exp (Host.negf (addf (Host.dotGeneral dot_S8x16_S16x256_S8x256_1_0_0_1_n_n none h (transpose S16x256 [1, 0] a3 transposes_S256x16_S16x256_1_0)) (broadcastInDim S8x256 ![0, 1] bcast_S1x256_S8x256_0_1 (broadcastInDim S1x256 ![1] bcast_S256_S1x256_1 a4))))))

/-- The gate of the block: a function of the per-channel sums of squares and of the four parameter arrays. -/
def gate (ss : (⟨S8x256, .f32⟩ : BufTy).Contents (Elt F)) (a1 : (⟨S16x256, .f32⟩ : BufTy).Contents (Elt F)) (a2 : (⟨S16, .f32⟩ : BufTy).Contents (Elt F))
    (a3 : (⟨S256x16, .f32⟩ : BufTy).Contents (Elt F)) (a4 : (⟨S256, .f32⟩ : BufTy).Contents (Elt F)) : (⟨S8x256, .f32⟩ : BufTy).Contents (Elt F) :=
  excite (rect (squeeze ss a1 a2)) a3 a4

end Cert.ReferenceIdeal.Spec

namespace Cert.Spec

/-- Both programs spell the gate with the same operations over the same shapes. -/
theorem gate_eq : (Cert.KernelIdeal.Spec.gate (F := F)) = Cert.ReferenceIdeal.Spec.gate (F := F) := rfl

end Cert.Spec

end
-- ==== Proof.KI.ValRun.lean ====
import proofs.«153147_j34445637714659_1_alg».proof.Proof.KI.Run
import proofs.«153147_j34445637714659_1_alg».proof.Proof.KI.Val0
import proofs.«153147_j34445637714659_1_alg».proof.Proof.KI.Val1
import proofs.«153147_j34445637714659_1_alg».proof.Proof.KI.Layout
import proofs.«153147_j34445637714659_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # The kernel program's result over the extended reals: each element times the gate of its channel's sum of squares -/

/-- The per-channel sums of squares the first launch computes, as a function of the 4-dimensional argument. -/
def sumsqK (x : (⟨S8x256x192x192, .f32⟩ : BufTy).Contents (Elt Ideal)) : (⟨S8x256, .f32⟩ : BufTy).Contents (Elt Ideal) :=
  sumsqOf (shapeCast S8x256x36864 x shapeCasts_S8x256x192x192_S8x256x36864)

theorem sumsqK_apply (x : (⟨S8x256x192x192, .f32⟩ : BufTy).Contents (Elt Ideal)) (b : Fin 8) (ch : Fin 256) :
    sumsqK x (ix2 b ch) = ∑ h : Fin 192, ∑ w : Fin 192, (x (ix4 b ch h w) : EReal) * x (ix4 b ch h w) := by
  unfold sumsqK
  rw [sumsqOf_apply, sum_rows]
  refine Finset.sum_congr rfl fun h _ => Finset.sum_congr rfl fun w _ => ?_
  rw [merge_apply]

/-- The program's result as a function of its five arguments. -/
def kerOut (x : (⟨S8x256x192x192, .f32⟩ : BufTy).Contents (Elt Ideal)) (a1 : (⟨S16x256, .f32⟩ : BufTy).Contents (Elt Ideal)) (a2 : (⟨S16, .f32⟩ : BufTy).Contents (Elt Ideal))
    (a3 : (⟨S256x16, .f32⟩ : BufTy).Contents (Elt Ideal)) (a4 : (⟨S256, .f32⟩ : BufTy).Contents (Elt Ideal)) : (⟨S8x256x192x192, .f32⟩ : BufTy).Contents (Elt Ideal) :=
  shapeCast S8x256x192x192
    (scaledOf (shapeCast S8x256x36864 x shapeCasts_S8x256x192x192_S8x256x36864)
      (shapeCast S8x256x1 (Cert.KernelIdeal.Spec.gate (sumsqK x) a1 a2 a3 a4) shapeCasts_S8x256_S8x256x1))
    shapeCasts_S8x256x36864_S8x256x192x192

theorem kerOut_apply (x : (⟨S8x256x192x192, .f32⟩ : BufTy).Contents (Elt Ideal)) (a1 : (⟨S16x256, .f32⟩ : BufTy).Contents (Elt Ideal)) (a2 : (⟨S16, .f32⟩ : BufTy).Contents (Elt Ideal))
    (a3 : (⟨S256x16, .f32⟩ : BufTy).Contents (Elt Ideal)) (a4 : (⟨S256, .f32⟩ : BufTy).Contents (Elt Ideal)) (b : Fin 8) (ch : Fin 256) (h w : Fin 192) :
    kerOut x a1 a2 a3 a4 (ix4 b ch h w) = (x (ix4 b ch h w) : EReal) * Cert.KernelIdeal.Spec.gate (sumsqK x) a1 a2 a3 a4 (ix2 b ch) := by
  unfold kerOut
  rw [split_apply, scaledOf_apply, merge_apply, column_apply]

/-! ## The host stretches, over any contents

Each stretch is a straight line of operations: what it leaves in the one buffer a later item reads is the
operations' composition over what the stretch found in the buffers it reads, and a buffer it does not write is as
it found it. Stated over an arbitrary valuation, so that no boundary's contents are ever unfolded. -/

section Host
variable {F : FTy → Type} [FloatOps F] (W : Valuation τ sig (Elt F))

/-- The first stretch merges the argument's two spatial axes. -/
private theorem host0_v0 : StableHlo.after hostOps0 W (Proc.devRef .tc main_v0)
    = shapeCast S8x256x36864 (W (Proc.devRef .tc main_arg0)) shapeCasts_S8x256x192x192_S8x256x36864 := by
  after_results_simp <;> rfl
private theorem host0_arg1 : StableHlo.after hostOps0 W (Proc.devRef .tc main_arg1) = W (Proc.devRef .tc main_arg1) := by after_results_simp
private theorem host0_arg2 : StableHlo.after hostOps0 W (Proc.devRef .tc main_arg2) = W (Proc.devRef .tc main_arg2) := by after_results_simp
private theorem host0_arg3 : StableHlo.after hostOps0 W (Proc.devRef .tc main_arg3) = W (Proc.devRef .tc main_arg3) := by after_results_simp
private theorem host0_arg4 : StableHlo.after hostOps0 W (Proc.devRef .tc main_arg4) = W (Proc.devRef .tc main_arg4) := by after_results_simp

/-- The stretch after the first launch is the squeeze layer of the sums of squares. -/
private theorem host1_v10 : StableHlo.after hostOps1 W (Proc.devRef .tc main_v10)
    = Cert.KernelIdeal.Spec.squeeze (W (Proc.devRef .tc main_v1)) (W (Proc.devRef .tc main_arg1)) (W (Proc.devRef .tc main_arg2)) := by
  after_results_simp <;> rfl
private theorem host1_v0 : StableHlo.after hostOps1 W (Proc.devRef .tc main_v0) = W (Proc.devRef .tc main_v0) := by after_results_simp
private theorem host1_arg3 : StableHlo.after hostOps1 W (Proc.devRef .tc main_arg3) = W (Proc.devRef .tc main_arg3) := by after_results_simp
private theorem host1_arg4 : StableHlo.after hostOps1 W (Proc.devRef .tc main_arg4) = W (Proc.devRef .tc main_arg4) := by after_results_simp

/-- The called function is the rectifier. -/
private theorem host1_1_v11 : StableHlo.after hostOps1_1 W (Proc.devRef .tc main_v11)
    = Cert.KernelIdeal.Spec.rect (W (Proc.devRef .tc main_v10)) := by
  after_results_simp <;> rfl
private theorem host1_1_v0 : StableHlo.after hostOps1_1 W (Proc.devRef .tc main_v0) = W (Proc.devRef .tc main_v0) := by after_results_simp
private theorem host1_1_arg3 : StableHlo.after hostOps1_1 W (Proc.devRef .tc main_arg3) = W (Proc.devRef .tc main_arg3) := by after_results_simp
private theorem host1_1_arg4 : StableHlo.after hostOps1_1 W (Proc.devRef .tc main_arg4) = W (Proc.devRef .tc main_arg4) := by after_results_simp

/-- The stretch before the second launch is the excitation layer, as a column. -/
private theorem host1_2_v23 : StableHlo.after hostOps1_2 W (Proc.devRef .tc main_v23)
    = shapeCast S8x256x1 (Cert.KernelIdeal.Spec.excite (W (Proc.devRef .tc main_v11)) (W (Proc.devRef .tc main_arg3)) (W (Proc.devRef .tc main_arg4))) shapeCasts_S8x256_S8x256x1 := by
  after_results_simp <;> rfl
private theorem host1_2_v0 : StableHlo.after hostOps1_2 W (Proc.devRef .tc main_v0) = W (Proc.devRef .tc main_v0) := by after_results_simp

/-- The last stretch splits the spatial axis back. -/
private theorem host2_v25 : StableHlo.after hostOps2 W (Proc.devRef .tc main_v25)
    = shapeCast S8x256x192x192 (W (Proc.devRef .tc main_v24)) shapeCasts_S8x256x36864_S8x256x192x192 := by
  after_results_simp <;> rfl

end Host

/-! ## The buffers the result is made of, boundary by boundary -/

section Boundaries
variable (m : (ℓ : Loc nD τ sig) → Buf (Elt Ideal) ℓ) (ρ : Dev nD → PrngReg) (c : Dev nD)

/-- The first launch's input array: the argument with its spatial axes merged. -/
private theorem W1_v0 : W1 m ρ c (Proc.devRef .tc main_v0)
    = shapeCast S8x256x36864 (m ((c : Thread nD τ).loc main_arg0)) shapeCasts_S8x256x192x192_S8x256x36864 :=
  host0_v0 (W0 m ρ c)

/-- The first launch's output array: the sums of squares. -/
private theorem W2_v1 : W2 m ρ c (Proc.devRef .tc main_v1) = sumsqK (m ((c : Thread nD τ).loc main_arg0)) :=
  (W2_arr m ρ c 1).trans ((sumsq_final (V1 m ρ) c).trans (congrArg sumsqOf (W1_v0 m ρ c)))

private theorem W2_arg1 : W2 m ρ c (Proc.devRef .tc main_arg1) = m ((c : Thread nD τ).loc main_arg1) :=
  (W2_of_ne m ρ c main_arg1 (by decide)).trans (host0_arg1 (W0 m ρ c))
private theorem W2_arg2 : W2 m ρ c (Proc.devRef .tc main_arg2) = m ((c : Thread nD τ).loc main_arg2) :=
  (W2_of_ne m ρ c main_arg2 (by decide)).trans (host0_arg2 (W0 m ρ c))
private theorem W2_arg3 : W2 m ρ c (Proc.devRef .tc main_arg3) = m ((c : Thread nD τ).loc main_arg3) :=
  (W2_of_ne m ρ c main_arg3 (by decide)).trans (host0_arg3 (W0 m ρ c))
private theorem W2_arg4 : W2 m ρ c (Proc.devRef .tc main_arg4) = m ((c : Thread nD τ).loc main_arg4) :=
  (W2_of_ne m ρ c main_arg4 (by decide)).trans (host0_arg4 (W0 m ρ c))
private theorem W2_v0 : W2 m ρ c (Proc.devRef .tc main_v0)
    = shapeCast S8x256x36864 (m ((c : Thread nD τ).loc main_arg0)) shapeCasts_S8x256x192x192_S8x256x36864 :=
  (W2_arr m ρ c 0).trans (((dat0 (V1 m ρ) c).arrAt_in 0 rfl _).trans ((A_eq0 (V1 m ρ) c 0).trans (W1_v0 m ρ c)))

/-- After the squeeze layer. -/
private theorem W3_v10 : W3 m ρ c (Proc.devRef .tc main_v10)
    = Cert.KernelIdeal.Spec.squeeze (sumsqK (m ((c : Thread nD τ).loc main_arg0))) (m ((c : Thread nD τ).loc main_arg1)) (m ((c : Thread nD τ).loc main_arg2)) := by
  rw [show W3 m ρ c = StableHlo.after hostOps1 (W2 m ρ c) from rfl, host1_v10, W2_v1, W2_arg1, W2_arg2]

/-- After the rectifier. -/
private theorem W4_v11 : W4 m ρ c (Proc.devRef .tc main_v11)
    = Cert.KernelIdeal.Spec.rect (Cert.KernelIdeal.Spec.squeeze (sumsqK (m ((c : Thread nD τ).loc main_arg0))) (m ((c : Thread nD τ).loc main_arg1)) (m ((c : Thread nD τ).loc main_arg2))) := by
  rw [show W4 m ρ c = StableHlo.after hostOps1_1 (W3 m ρ c) from rfl, host1_1_v11, W3_v10]
private theorem W4_arg3 : W4 m ρ c (Proc.devRef .tc main_arg3) = m ((c : Thread nD τ).loc main_arg3) := by
  rw [show W4 m ρ c = StableHlo.after hostOps1_1 (W3 m ρ c) from rfl, host1_1_arg3,
    show W3 m ρ c = StableHlo.after hostOps1 (W2 m ρ c) from rfl, host1_arg3, W2_arg3]
private theorem W4_arg4 : W4 m ρ c (Proc.devRef .tc main_arg4) = m ((c : Thread nD τ).loc main_arg4) := by
  rw [show W4 m ρ c = StableHlo.after hostOps1_1 (W3 m ρ c) from rfl, host1_1_arg4,
    show W3 m ρ c = StableHlo.after hostOps1 (W2 m ρ c) from rfl, host1_arg4, W2_arg4]

/-- The second launch's gate array: the gate of the sums of squares, as a column. -/
private theorem W5_v23 : W5 m ρ c (Proc.devRef .tc main_v23)
    = shapeCast S8x256x1 (Cert.KernelIdeal.Spec.gate (sumsqK (m ((c : Thread nD τ).loc main_arg0))) (m ((c : Thread nD τ).loc main_arg1)) (m ((c : Thread nD τ).loc main_arg2))
        (m ((c : Thread nD τ).loc main_arg3)) (m ((c : Thread nD τ).loc main_arg4))) shapeCasts_S8x256_S8x256x1 := by
  rw [show W5 m ρ c = StableHlo.after hostOps1_2 (W4 m ρ c) from rfl, host1_2_v23, W4_v11, W4_arg3, W4_arg4]
  rfl
/-- The second launch's input array is still the merged argument: no stretch in between writes it, and the first launch only reads it. -/
private theorem W5_v0 : W5 m ρ c (Proc.devRef .tc main_v0)
    = shapeCast S8x256x36864 (m ((c : Thread nD τ).loc main_arg0)) shapeCasts_S8x256x192x192_S8x256x36864 := by
  rw [show W5 m ρ c = StableHlo.after hostOps1_2 (W4 m ρ c) from rfl, host1_2_v0,
    show W4 m ρ c = StableHlo.after hostOps1_1 (W3 m ρ c) from rfl, host1_1_v0,
    show W3 m ρ c = StableHlo.after hostOps1 (W2 m ρ c) from rfl, host1_v0, W2_v0]

/-- The second launch's output array: the merged argument scaled by the gate column. -/
private theorem W6_v24 : W6 m ρ c (Proc.devRef .tc main_v24)
    = scaledOf (shapeCast S8x256x36864 (m ((c : Thread nD τ).loc main_arg0)) shapeCasts_S8x256x192x192_S8x256x36864)
        (shapeCast S8x256x1 (Cert.KernelIdeal.Spec.gate (sumsqK (m ((c : Thread nD τ).loc main_arg0))) (m ((c : Thread nD τ).loc main_arg1)) (m ((c : Thread nD τ).loc main_arg2))
          (m ((c : Thread nD τ).loc main_arg3)) (m ((c : Thread nD τ).loc main_arg4))) shapeCasts_S8x256_S8x256x1) :=
  (W6_arr m ρ c 2).trans ((scaled_final (V5 m ρ) c).trans (congrArg₂ scaledOf (W5_v0 m ρ c) (W5_v23 m ρ c)))

/-- The result buffer at the return. -/
private theorem W7_v25 : W7 m ρ c (Proc.devRef .tc main_v25)
    = kerOut (m ((c : Thread nD τ).loc main_arg0)) (m ((c : Thread nD τ).loc main_arg1)) (m ((c : Thread nD τ).loc main_arg2))
        (m ((c : Thread nD τ).loc main_arg3)) (m ((c : Thread nD τ).loc main_arg4)) := by
  rw [show W7 m ρ c = StableHlo.after hostOps2 (W6 m ρ c) from rfl, host2_v25, W6_v24]
  rfl

end Boundaries

/-- The program's run, its result named. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c _ (mem_uc main_v25 (by decide))).trans (W7_v25 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Hand

end
-- ==== Proof.RefVal.lean ====
import proofs.«153147_j34445637714659_1_alg».proof.Proof.Gen.ReferenceIdeal.Run
import proofs.«153147_j34445637714659_1_alg».proof.Proof.Gen.ReferenceIdeal.Read
import proofs.«153147_j34445637714659_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! # The reference's result over the extended reals: each element times the gate of its channel's sum of squares -/

/-- The reference's per-channel sums of squares: the sum over both spatial axes of the squares, from zero. -/
def sumsqRef (x : (⟨S8x256x192x192, .f32⟩ : BufTy).Contents (Elt Ideal)) : (⟨S8x256, .f32⟩ : BufTy).Contents (Elt Ideal) :=
  Host.reduceAdd (F := Ideal) (mulf (F := Ideal) x x) (constant (F := Ideal) S_ .f32 0x00000000#32) reducesTo_S8x256x192x192_S8x256_d2_3 h_S_

/-- The fibre of the reduction over both spatial axes above a (batch, channel) pair is the square of spatial positions. -/
private theorem sum_fibre {M : Type} [AddCommMonoid M] (f : S8x256x192x192.Idx → M) (b : Fin 8) (ch : Fin 256) :
    ∑ i ∈ Finset.univ.filter (fun i => reducesTo_S8x256x192x192_S8x256_d2_3.drop i = ix2 b ch), f i
      = ∑ h : Fin 192, ∑ w : Fin 192, f (ix4 b ch h w) := by
  rw [← Fintype.sum_prod_type (f := fun p : Fin 192 × Fin 192 => f (ix4 b ch p.1 p.2))]
  symm
  refine Finset.sum_bij (fun p _ => ix4 b ch p.1 p.2) ?_ ?_ ?_ ?_
  · intro p _
    rw [Finset.mem_filter]
    refine ⟨Finset.mem_univ _, ?_⟩
    funext a
    match a with
    | ⟨0, _⟩ => rfl
    | ⟨1, _⟩ => rfl
  · intro p _ q _ hpq
    have h2 : p.1 = q.1 := congrFun hpq (2 : Fin 4)
    have h3 : p.2 = q.2 := congrFun hpq (3 : Fin 4)
    exact Prod.ext h2 h3
  · intro i hi
    rw [Finset.mem_filter] at hi
    obtain ⟨b', c', h', w', rfl⟩ : ∃ b' c' h' w', i = ix4 b' c' h' w' := ⟨_, _, _, _, eq_ix4 i⟩
    have h0 : b' = b := congrFun hi.2 (0 : Fin 2)
    have h1 : c' = ch := congrFun hi.2 (1 : Fin 2)
    subst h0 h1
    exact ⟨(h', w'), Finset.mem_univ _, rfl⟩
  · intro p _; rfl

theorem sumsqRef_apply (x : (⟨S8x256x192x192, .f32⟩ : BufTy).Contents (Elt Ideal)) (b : Fin 8) (ch : Fin 256) :
    sumsqRef x (ix2 b ch) = ∑ h : Fin 192, ∑ w : Fin 192, (x (ix4 b ch h w) : EReal) * x (ix4 b ch h w) := by
  have e : sumsqRef x (ix2 b ch) = Ideal.ofBits .f32 0x00000000#32
      + ∑ i ∈ Finset.univ.filter (fun i => reducesTo_S8x256x192x192_S8x256_d2_3.drop i = ix2 b ch), (x i : EReal) * x i := rfl
  rw [e, sum_fibre (fun i => (x i : EReal) * x i), Ideal.ofBits_zero_f32, zero_add]

/-- The reference's result: the array times the gate broadcast over both spatial axes. -/
def refOut (x : (⟨S8x256x192x192, .f32⟩ : BufTy).Contents (Elt Ideal)) (a1 : (⟨S16x256, .f32⟩ : BufTy).Contents (Elt Ideal)) (a2 : (⟨S16, .f32⟩ : BufTy).Contents (Elt Ideal))
    (a3 : (⟨S256x16, .f32⟩ : BufTy).Contents (Elt Ideal)) (a4 : (⟨S256, .f32⟩ : BufTy).Contents (Elt Ideal)) : (⟨S8x256x192x192, .f32⟩ : BufTy).Contents (Elt Ideal) :=
  mulf (F := Ideal) (φ := .f32) x (broadcastInDim S8x256x192x192 ![0, 1, 2, 3] bcast_S8x256x1x1_S8x256x192x192_0_1_2_3 (broadcastInDim S8x256x1x1 ![0, 1] bcast_S8x256_S8x256x1x1_0_1 (Cert.ReferenceIdeal.Spec.gate (sumsqRef x) a1 a2 a3 a4)))

/-- A gate array broadcast over both spatial axes reads, at a position, the gate of that position's batch and channel. -/
private theorem bcast_gate_apply (g : (⟨S8x256, .f32⟩ : BufTy).Contents (Elt Ideal)) (b : Fin 8) (ch : Fin 256) (h w : Fin 192) :
    broadcastInDim S8x256x192x192 ![0, 1, 2, 3] bcast_S8x256x1x1_S8x256x192x192_0_1_2_3 (broadcastInDim S8x256x1x1 ![0, 1] bcast_S8x256_S8x256x1x1_0_1 g) (ix4 b ch h w) = g (ix2 b ch) := by
  rw [broadcastInDim_apply _ bcast_S8x256x1x1_S8x256x192x192_0_1_2_3 _ (ix4 b ch h w) (Read.idx_main_v24 (ix4 b ch h w)) (fun a => match a with
    | ⟨0, _⟩ => by show b.val = if (8 : Nat) = 1 then 0 else b.val; rw [if_neg (by decide)]
    | ⟨1, _⟩ => by show ch.val = if (256 : Nat) = 1 then 0 else ch.val; rw [if_neg (by decide)]
    | ⟨2, _⟩ => by show 0 = if (1 : Nat) = 1 then 0 else h.val; rw [if_pos rfl]
    | ⟨3, _⟩ => by show 0 = if (1 : Nat) = 1 then 0 else w.val; rw [if_pos rfl])]
  rw [broadcastInDim_apply _ bcast_S8x256_S8x256x1x1_0_1 g (Read.idx_main_v24 (ix4 b ch h w)) (Read.idx_main_v23 (Read.idx_main_v24 (ix4 b ch h w))) (fun a => match a with
    | ⟨0, _⟩ => by show b.val = if (8 : Nat) = 1 then 0 else b.val; rw [if_neg (by decide)]
    | ⟨1, _⟩ => by show ch.val = if (256 : Nat) = 1 then 0 else ch.val; rw [if_neg (by decide)])]
  exact congrArg g (funext fun a => Fin.ext (by match a with | ⟨0, _⟩ => rfl | ⟨1, _⟩ => rfl))

theorem refOut_apply (x : (⟨S8x256x192x192, .f32⟩ : BufTy).Contents (Elt Ideal)) (a1 : (⟨S16x256, .f32⟩ : BufTy).Contents (Elt Ideal)) (a2 : (⟨S16, .f32⟩ : BufTy).Contents (Elt Ideal))
    (a3 : (⟨S256x16, .f32⟩ : BufTy).Contents (Elt Ideal)) (a4 : (⟨S256, .f32⟩ : BufTy).Contents (Elt Ideal)) (b : Fin 8) (ch : Fin 256) (h w : Fin 192) :
    refOut x a1 a2 a3 a4 (ix4 b ch h w) = (x (ix4 b ch h w) : EReal) * Cert.ReferenceIdeal.Spec.gate (sumsqRef x) a1 a2 a3 a4 (ix2 b ch) := by
  unfold refOut
  generalize Cert.ReferenceIdeal.Spec.gate (sumsqRef x) a1 a2 a3 a4 = g
  rw [mulf_apply, bcast_gate_apply]

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := Ideal) m ρ)

end Cert.ReferenceIdeal.RefValue

end
-- ==== Proof.lean ====
/-
  The squeeze-and-excitation block, as two launches around a small host computation, against its plain array form.

  Both programs compute, for the array `x` of shape [8, 256, 192, 192],
      out (b, c, h, w) = x (b, c, h, w) · gate (s) (b, c),      s (b, c) = Σ over (h, w) of x (b, c, h, w)²,
  where `gate` is the two-layer perceptron with a rectifier and a logistic function applied to the normalised norms
  `√s / (√s + ε)`. The first launch accumulates `s` over 72 tiles of 512 spatial positions in a scratch buffer (reset at the
  first tile, copied out at the last); the second multiplies each tile by the gate's column. The reference sums over both
  spatial axes at once. Over the extended reals addition is commutative and associative, so the two sums agree; the gate is
  the same function on both sides and is never opened.

  The frames of the two kernel programs come from one run of the whole program — host stretch, launch, three host
  stretches, launch, host stretch — that names every buffer's contents at each boundary; the value claim reads the result
  buffer off that run's last boundary.
-/
import proofs.«153147_j34445637714659_1_alg».proof.Defs
import proofs.«153147_j34445637714659_1_alg».proof.Proof.Gen.Kernel
import proofs.«153147_j34445637714659_1_alg».proof.Proof.Gen.KernelIdeal
import proofs.«153147_j34445637714659_1_alg».proof.Proof.Gen.ReferenceIdeal
import proofs.«153147_j34445637714659_1_alg».proof.Proof.Gen.Pre_finite_inputs
import proofs.«153147_j34445637714659_1_alg».proof.Proof.Gen.ReferenceIdeal.Run
import proofs.«153147_j34445637714659_1_alg».proof.Proof.K.Run
import proofs.«153147_j34445637714659_1_alg».proof.Proof.KI.Run
import proofs.«153147_j34445637714659_1_alg».proof.Proof.KI.ValRun
import proofs.«153147_j34445637714659_1_alg».proof.Proof.RefVal
import proofs.«153147_j34445637714659_1_alg».proof.Proof.Spec
import Idealize.ShloMosaic.Lib.ValueIdx

noncomputable section

namespace Cert.Proof

open Idealize.ShloMosaic Idealize.ShloMosaic.TcCoe Idealize.SL.Sem Idealize.ShloMosaic.ValueIdx

/-- The word-level program runs to the end and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two sums of squares are one function: both are the sum over the 192 × 192 spatial positions. -/
theorem sumsq_eq (x : (⟨Cert.KernelIdeal.S8x256x192x192, .f32⟩ : BufTy).Contents (Elt Ideal)) :
    Cert.KernelIdeal.Hand.sumsqK x = Cert.ReferenceIdeal.RefValue.sumsqRef x := by
  funext j
  obtain ⟨b, ch, rfl⟩ : ∃ (b : Fin 8) (ch : Fin 256), j = ix2 b ch := ⟨j 0, j 1, eq_ix2 j⟩
  rw [Cert.KernelIdeal.Hand.sumsqK_apply, Cert.ReferenceIdeal.RefValue.sumsqRef_apply]

/-- The two results are one function of the arguments: element by element the input times the same gate of the same sums. -/
theorem result_eq (x : (⟨Cert.KernelIdeal.S8x256x192x192, .f32⟩ : BufTy).Contents (Elt Ideal)) (a1 : (⟨Cert.KernelIdeal.S16x256, .f32⟩ : BufTy).Contents (Elt Ideal))
    (a2 : (⟨Cert.KernelIdeal.S16, .f32⟩ : BufTy).Contents (Elt Ideal)) (a3 : (⟨Cert.KernelIdeal.S256x16, .f32⟩ : BufTy).Contents (Elt Ideal))
    (a4 : (⟨Cert.KernelIdeal.S256, .f32⟩ : BufTy).Contents (Elt Ideal)) :
    Cert.ReferenceIdeal.RefValue.refOut x a1 a2 a3 a4 = Cert.KernelIdeal.Hand.kerOut x a1 a2 a3 a4 := by
  funext i
  obtain ⟨b, ch, h, w, rfl⟩ : ∃ (b : Fin 8) (ch : Fin 256) (h w : Fin 192), i = ix4 b ch h w := ⟨i 0, i 1, i 2, i 3, eq_ix4 i⟩
  rw [Cert.KernelIdeal.Hand.kerOut_apply, Cert.ReferenceIdeal.RefValue.refOut_apply, sumsq_eq x, Cert.Spec.gate_eq]

/-- From memories agreeing on the arguments both idealized programs end with the same result. -/
theorem algebraic : Cert.algebraic_KernelIdeal_ReferenceIdeal := by
  intro m ρ m' ρ' _ hagree
  refine ⟨_, Cert.KernelIdeal.Hand.run_ker m ρ, ?_⟩
  refine (θ_run Cert.ReferenceIdeal.defs _ _).mono (fun _ h c => ⟨(h c).1.trans ?_, (h c).2⟩)
    (Cert.ReferenceIdeal.RefValue.run_ref m' ρ')
  rw [(hagree c).1, (hagree c).2.1, (hagree c).2.2.1, (hagree c).2.2.2.1, (hagree c).2.2.2.2]
  exact result_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
